-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048 : Shape := ⟨1, ![2048]⟩
abbrev S16384 : Shape := ⟨1, ![16384]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S16384x2048 .f32) (main_arg1 : FVec F S2048 .f32) (main_arg2 : FVec F S2048 .f32) (main_arg3 : IVec S16384 32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S16384x2048 : Shape := ⟨2, ![16384, 2048]⟩
abbrev S2048 : Shape := ⟨1, ![2048]⟩
abbrev S16384 : Shape := ⟨1, ![16384]⟩
abbrev S6x16384 : Shape := ⟨2, ![6, 16384]⟩
abbrev S1x16384 : Shape := ⟨2, ![1, 16384]⟩
abbrev S2x6x2048 : Shape := ⟨3, ![2, 6, 2048]⟩
abbrev S512x2048 : Shape := ⟨2, ![512, 2048]⟩
abbrev S6x512 : Shape := ⟨2, ![6, 512]⟩
abbrev S1x6x2048 : Shape := ⟨3, ![1, 6, 2048]⟩
abbrev S6x2048 : Shape := ⟨2, ![6, 2048]⟩
abbrev S_ : Shape := ⟨0, ![]⟩
abbrev S6 : Shape := ⟨1, ![6]⟩
abbrev S16384x1 : Shape := ⟨2, ![16384, 1]⟩
abbrev S6x1 : Shape := ⟨2, ![6, 1]⟩
abbrev S1x2048 : Shape := ⟨2, ![1, 2048]⟩

abbrev nBuf : Space → Nat
  | .hbm => 108
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S16384, .i32⟩
  | .hbm, ⟨4, _⟩ => ⟨S6x16384, .i32⟩
  | .hbm, ⟨5, _⟩ => ⟨S1x16384, .i32⟩
  | .hbm, ⟨6, _⟩ => ⟨S6x16384, .i32⟩
  | .hbm, ⟨7, _⟩ => ⟨S6x16384, .i1⟩
  | .hbm, ⟨8, _⟩ => ⟨S6x16384, .f32⟩
  | .hbm, ⟨9, _⟩ => ⟨S2x6x2048, .f32⟩
  | .hbm, ⟨10, _⟩ => ⟨S2x6x2048, .f32⟩
  | .hbm, ⟨11, _⟩ => ⟨S_, .f32⟩
  | .hbm, ⟨12, _⟩ => ⟨S6x2048, .f32⟩
  | .hbm, ⟨13, _⟩ => ⟨S_, .f32⟩
  | .hbm, ⟨14, _⟩ => ⟨S6x2048, .f32⟩
  | .hbm, ⟨15, _⟩ => ⟨S_, .f32⟩
  | .hbm, ⟨16, _⟩ => ⟨S16384, .f32⟩
  | .hbm, ⟨17, _⟩ => ⟨S_, .f32⟩
  | .hbm, ⟨18, _⟩ => ⟨S6, .f32⟩
  | .hbm, ⟨19, _⟩ => ⟨S16384x1, .i32⟩
  | .hbm, ⟨20, _⟩ => ⟨S6, .f32⟩
  | .hbm, ⟨21, _⟩ => ⟨S_, .f32⟩
  | .hbm, ⟨22, _⟩ => ⟨S6, .f32⟩
  | .hbm, ⟨23, _⟩ => ⟨S6, .f32⟩
  | .hbm, ⟨24, _⟩ => ⟨S6x1, .f32⟩
  | .hbm, ⟨25, _⟩ => ⟨S6x2048, .f32⟩
  | .hbm, ⟨26, _⟩ => ⟨S6x2048, .f32⟩
  | .hbm, ⟨27, _⟩ => ⟨S_, .f32⟩
  | .hbm, ⟨28, _⟩ => ⟨S6, .f32⟩
  | .hbm, ⟨29, _⟩ => ⟨S6, .f32⟩
  | .hbm, ⟨30, _⟩ => ⟨S_, .f32⟩
  | .hbm, ⟨31, _⟩ => ⟨S6, .f32⟩
  | .hbm, ⟨32, _⟩ => ⟨S6, .f32⟩
  | .hbm, ⟨33, _⟩ => ⟨S6x1, .f32⟩
  | .hbm, ⟨34, _⟩ => ⟨S6x2048, .f32⟩
  | .hbm, ⟨35, _⟩ => ⟨S6x2048, .f32⟩
  | .hbm, ⟨36, _⟩ => ⟨S6x2048, .f32⟩
  | .hbm, ⟨37, _⟩ => ⟨S6x2048, .f32⟩
  | .hbm, ⟨38, _⟩ => ⟨S_, .f32⟩
  | .hbm, ⟨39, _⟩ => ⟨S6x2048, .f32⟩
  | .hbm, ⟨40, _⟩ => ⟨S6x2048, .f32⟩
  | .hbm, ⟨41, _⟩ => ⟨S6x1, .f32⟩
  | .hbm, ⟨42, _⟩ => ⟨S6x2048, .f32⟩
  | .hbm, ⟨43, _⟩ => ⟨S6x2048, .f32⟩
  | .hbm, ⟨44, _⟩ => ⟨S6x2048, .f32⟩
  | .hbm, ⟨45, _⟩ => ⟨S_, .f32⟩
  | .hbm, ⟨46, _⟩ => ⟨S6, .f32⟩
  | .hbm, ⟨47, _⟩ => ⟨S6, .i1⟩
  | .hbm, ⟨48, _⟩ => ⟨S6, .i32⟩
  | .hbm, ⟨49, _⟩ => ⟨S_, .i32⟩
  | .hbm, ⟨50, _⟩ => ⟨S_, .i32⟩
  | .hbm, ⟨51, _⟩ => ⟨S_, .f32⟩
  | .hbm, ⟨52, _⟩ => ⟨S6x1, .i1⟩
  | .hbm, ⟨53, _⟩ => ⟨S_, .f32⟩
  | .hbm, ⟨54, _⟩ => ⟨S_, .f32⟩
  | .hbm, ⟨55, _⟩ => ⟨S6x2048, .i1⟩
  | .hbm, ⟨56, _⟩ => ⟨S6x2048, .f32⟩
  | .hbm, ⟨57, _⟩ => ⟨S6x2048, .f32⟩
  | .hbm, ⟨58, _⟩ => ⟨S_, .f32⟩
  | .hbm, ⟨59, _⟩ => ⟨S2048, .f32⟩
  | .hbm, ⟨60, _⟩ => ⟨S2048, .f32⟩
  | .hbm, ⟨61, _⟩ => ⟨S2048, .f32⟩
  | .hbm, ⟨62, _⟩ => ⟨S6x1, .i1⟩
  | .hbm, ⟨63, _⟩ => ⟨S_, .f32⟩
  | .hbm, ⟨64, _⟩ => ⟨S_, .f32⟩
  | .hbm, ⟨65, _⟩ => ⟨S6x2048, .i1⟩
  | .hbm, ⟨66, _⟩ => ⟨S6x2048, .f32⟩
  | .hbm, ⟨67, _⟩ => ⟨S6x2048, .f32⟩
  | .hbm, ⟨68, _⟩ => ⟨S_, .f32⟩
  | .hbm, ⟨69, _⟩ => ⟨S2048, .f32⟩
  | .hbm, ⟨70, _⟩ => ⟨S2048, .f32⟩
  | .hbm, ⟨71, _⟩ => ⟨S2048, .f32⟩
  | .hbm, ⟨72, _⟩ => ⟨S_, .f32⟩
  | .hbm, ⟨73, _⟩ => ⟨S2048, .f32⟩
  | .hbm, ⟨74, _⟩ => ⟨S2048, .f32⟩
  | .hbm, ⟨75, _⟩ => ⟨S_, .f32⟩
  | .hbm, ⟨76, _⟩ => ⟨S2048, .f32⟩
  | .hbm, ⟨77, _⟩ => ⟨S2048, .f32⟩
  | .hbm, ⟨78, _⟩ => ⟨S2048, .f32⟩
  | .hbm, ⟨79, _⟩ => ⟨S_, .f32⟩
  | .hbm, ⟨80, _⟩ => ⟨S2048, .f32⟩
  | .hbm, ⟨81, _⟩ => ⟨S2048, .f32⟩
  | .hbm, ⟨82, _⟩ => ⟨S_, .f32⟩
  | .hbm, ⟨83, _⟩ => ⟨S2048, .f32⟩
  | .hbm, ⟨84, _⟩ => ⟨S2048, .f32⟩
  | .hbm, ⟨85, _⟩ => ⟨S2048, .f32⟩
  | .hbm, ⟨86, _⟩ => ⟨S1x2048, .f32⟩
  | .hbm, ⟨87, _⟩ => ⟨S6x2048, .f32⟩
  | .hbm, ⟨88, _⟩ => ⟨S6x2048, .f32⟩
  | .hbm, ⟨89, _⟩ => ⟨S6x2048, .f32⟩
  | .hbm, ⟨90, _⟩ => ⟨S_, .f32⟩
  | .hbm, ⟨91, _⟩ => ⟨S6, .f32⟩
  | .hbm, ⟨92, _⟩ => ⟨S1x2048, .f32⟩
  | .hbm, ⟨93, _⟩ => ⟨S6x2048, .f32⟩
  | .hbm, ⟨94, _⟩ => ⟨S6x2048, .f32⟩
  | .hbm, ⟨95, _⟩ => ⟨S6x2048, .f32⟩
  | .hbm, ⟨96, _⟩ => ⟨S_, .f32⟩
  | .hbm, ⟨97, _⟩ => ⟨S6, .f32⟩
  | .hbm, ⟨98, _⟩ => ⟨S6, .f32⟩
  | .hbm, ⟨99, _⟩ => ⟨S_, .f32⟩
  | .hbm, ⟨100, _⟩ => ⟨S_, .f32⟩
  | .hbm, ⟨101, _⟩ => ⟨S6, .f32⟩
  | .hbm, ⟨102, _⟩ => ⟨S6, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S6x512, .f32⟩
  | .local _ .vmem, ⟨3, _⟩ => ⟨S6x512, .f32⟩
  | .local _ .vmem, ⟨4, _⟩ => ⟨S1x6x2048, .f32⟩
  | .local _ .vmem, ⟨5, _⟩ => ⟨S1x6x2048, .f32⟩
  | .local _ .vmem, ⟨6, _⟩ => ⟨S1x6x2048, .f32⟩
  | .local _ .vmem, ⟨7, _⟩ => ⟨S1x6x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v43 : Ref sig .tc := ⟨.hbm, 67, rfl⟩
abbrev main_cst_11 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_12 : Ref sig .tc := ⟨.hbm, 72, rfl⟩
abbrev main_v47 : Ref sig .tc := ⟨.hbm, 73, rfl⟩
abbrev main_v48 : Ref sig .tc := ⟨.hbm, 74, rfl⟩
abbrev main_cst_13 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_14 : Ref sig .tc := ⟨.hbm, 79, rfl⟩
abbrev main_v52 : Ref sig .tc := ⟨.hbm, 80, rfl⟩
abbrev main_v53 : Ref sig .tc := ⟨.hbm, 81, rfl⟩
abbrev main_cst_15 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_16 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_17 : Ref sig .tc := ⟨.hbm, 96, rfl⟩
abbrev main_v66 : Ref sig .tc := ⟨.hbm, 97, rfl⟩
abbrev main_v67 : Ref sig .tc := ⟨.hbm, 98, rfl⟩
abbrev main_cst_18 : Ref sig .tc := ⟨.hbm, 99, rfl⟩
abbrev main_call2_v0 : Ref sig .tc := ⟨.hbm, 100, rfl⟩
abbrev main_call2_v1 : Ref sig .tc := ⟨.hbm, 101, rfl⟩
abbrev main_v68 : Ref sig .tc := ⟨.hbm, 102, rfl⟩
abbrev main_cst_19 : Ref sig .tc := ⟨.hbm, 103, rfl⟩
abbrev main_v69 : Ref sig .tc := ⟨.hbm, 104, rfl⟩
abbrev main_cst_20 : Ref sig .tc := ⟨.hbm, 105, rfl⟩
abbrev main_v70 : Ref sig .tc := ⟨.hbm, 106, rfl⟩
abbrev main_v71 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S6x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S16384_S1x16384_1 : S16384.BroadcastsInDim S1x16384 (![1] : Fin 1 → Fin S1x16384.rank)
  bcast_S1x16384_S6x16384_0_1 : S1x16384.BroadcastsInDim S6x16384 (![0, 1] : Fin 2 → Fin S6x16384.rank)
  inb_S1x6x2048_S1x6x2048_0_0_0 : ∀ a, (![0, 0, 0] : Fin 3 → Nat) a + S1x6x2048.size a ≤ S1x6x2048.size a
  h_S1x6x2048 : 0 < S1x6x2048.numel
  inb_S512x2048_S512x2048_0_0 : ∀ a, (![0, 0] : Fin 2 → Nat) a + S512x2048.size a ≤ S512x2048.size a
  h_S512x2048 : 0 < S512x2048.numel
  inb_S6x512_S6x512_0_0 : ∀ a, (![0, 0] : Fin 2 → Nat) a + S6x512.size a ≤ S6x512.size a
  h_S6x512 : 0 < S6x512.numel
  shapeCasts_S6x512_S6x512 : S6x512.ShapeCasts S6x512
  shapeCasts_S1x6x2048_S1x6x2048 : S1x6x2048.ShapeCasts S1x6x2048
  shapeCasts_S6x2048_S1x6x2048 : S6x2048.ShapeCasts S1x6x2048
  reducesTo_S2x6x2048_S6x2048_d0 : S2x6x2048.ReducesTo [0] S6x2048
  h_S_ : 0 < S_.numel
  bcast_S_S16384 : S_.BroadcastsInDim S16384 (![] : Fin 0 → Fin S16384.rank)
  bcast_S_S6 : S_.BroadcastsInDim S6 (![] : Fin 0 → Fin S6.rank)
  bcast_S16384_S16384x1_0 : S16384.BroadcastsInDim S16384x1 (![0] : Fin 1 → Fin S16384x1.rank)
  bcast_S6_S6x1_0 : S6.BroadcastsInDim S6x1 (![0] : Fin 1 → Fin S6x1.rank)
  bcast_S6x1_S6x2048_0_1 : S6x1.BroadcastsInDim S6x2048 (![0, 1] : Fin 2 → Fin S6x2048.rank)
  bcast_S_S6x2048 : S_.BroadcastsInDim S6x2048 (![] : Fin 0 → Fin S6x2048.rank)
  natLt_1_32 : 1 < 32
  reducesTo_S6_S_d0 : S6.ReducesTo [0] S_
  reducesTo_S6x2048_S2048_d0 : S6x2048.ReducesTo [0] S2048
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S6x2048_0_1 : S1x2048.BroadcastsInDim S6x2048 (![0, 1] : Fin 2 → Fin S6x2048.rank)
  reducesTo_S6x2048_S6_d1 : S6x2048.ReducesTo [1] S6
  dot_S6x512_S512x2048_S6x2048_1_0_0_1_n_n_wf : DotDims.WF S6x512 S512x2048 S6x2048 [1] [0] [0] [1] [] []
  scatter_S6_S16384x1_S16384_n_0_0_1_wf : ScatterDims.WF S6 S16384x1 S16384 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6x512.size a ≤ S6x16384.size a
  hwx0_1 : ∀ i : grid0.Coords, EltTy.bits .f32 = 32 ∨ (Rect.block (s := S6x16384) S6x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x6x2048.size a ≤ S2x6x2048.size a
  hwx0_2 : ∀ i : grid0.Coords, EltTy.bits .f32 = 32 ∨ (Rect.block (s := S2x6x2048) S1x6x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x6x2048.size a ≤ S2x6x2048.size a
  hwx0_3 : ∀ i : grid0.Coords, EltTy.bits .f32 = 32 ∨ (Rect.block (s := S2x6x2048) S1x6x2048.size (cc0_transform_3 i) (hinb0_3 i)).WholeWords (EltTy.packing .f32)

variable [Facts₀]

def dot_S6x512_S512x2048_S6x2048_1_0_0_1_n_n : DotDims S6x512 S512x2048 S6x2048 where
  lhsContracting := [1]
  rhsContracting := [0]
  lhsNonContracting := [0]
  rhsNonContracting := [1]
  lhsBatch := []
  rhsBatch := []
  wf := dot_S6x512_S512x2048_S6x2048_1_0_0_1_n_n_wf
def scatter_S6_S16384x1_S16384_n_0_0_1 : ScatterDims S6 S16384x1 S16384 where
  updateWindowDims := []
  insertedWindowDims := [0]
  scatterDimsToOperandDims := [0]
  indexVectorDim := 1
  wf := scatter_S6_S16384x1_S16384_n_0_0_1_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S6x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5_0) S1x6x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5_1) S1x6x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048 : Shape := ⟨1, ![2048]⟩
abbrev S16384 : Shape := ⟨1, ![16384]⟩
abbrev S_ : Shape := ⟨0, ![]⟩
abbrev S6 : Shape := ⟨1, ![6]⟩
abbrev S16384x1 : Shape := ⟨2, ![16384, 1]⟩
abbrev S6x2048 : Shape := ⟨2, ![6, 2048]⟩
abbrev S6x1 : Shape := ⟨2, ![6, 1]⟩
abbrev S1x2048 : Shape := ⟨2, ![1, 2048]⟩

abbrev nBuf : Space → Nat
  | .hbm => 108
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S16384, .i32⟩
  | .hbm, ⟨4, _⟩ => ⟨S_, .f32⟩
  | .hbm, ⟨5, _⟩ => ⟨S16384, .f32⟩
  | .hbm, ⟨6, _⟩ => ⟨S_, .f32⟩
  | .hbm, ⟨7, _⟩ => ⟨S6, .f32⟩
  | .hbm, ⟨8, _⟩ => ⟨S16384x1, .i32⟩
  | .hbm, ⟨9, _⟩ => ⟨S6, .f32⟩
  | .hbm, ⟨10, _⟩ => ⟨S_, .f32⟩
  | .hbm, ⟨11, _⟩ => ⟨S6x2048, .f32⟩
  | .hbm, ⟨12, _⟩ => ⟨S16384x1, .i32⟩
  | .hbm, ⟨13, _⟩ => ⟨S6x2048, .f32⟩
  | .hbm, ⟨14, _⟩ => ⟨S_, .f32⟩
  | .hbm, ⟨15, _⟩ => ⟨S6, .f32⟩
  | .hbm, ⟨16, _⟩ => ⟨S6, .f32⟩
  | .hbm, ⟨17, _⟩ => ⟨S6x1, .f32⟩
  | .hbm, ⟨18, _⟩ => ⟨S6x2048, .f32⟩
  | .hbm, ⟨19, _⟩ => ⟨S6x2048, .f32⟩
  | .hbm, ⟨20, _⟩ => ⟨S_, .i32⟩
  | .hbm, ⟨21, _⟩ => ⟨S16384, .i32⟩
  | .hbm, ⟨22, _⟩ => ⟨S16384, .i1⟩
  | .hbm, ⟨23, _⟩ => ⟨S_, .i32⟩
  | .hbm, ⟨24, _⟩ => ⟨S16384, .i32⟩
  | .hbm, ⟨25, _⟩ => ⟨S16384, .i32⟩
  | .hbm, ⟨26, _⟩ => ⟨S16384, .i32⟩
  | .hbm, ⟨27, _⟩ => ⟨S16384x1, .i32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S_, .f32⟩
  | .hbm, ⟨32, _⟩ => ⟨S6x2048, .f32⟩
  | .hbm, ⟨33, _⟩ => ⟨S16384x1, .i32⟩
  | .hbm, ⟨34, _⟩ => ⟨S6x2048, .f32⟩
  | .hbm, ⟨35, _⟩ => ⟨S_, .f32⟩
  | .hbm, ⟨36, _⟩ => ⟨S6, .f32⟩
  | .hbm, ⟨37, _⟩ => ⟨S6, .f32⟩
  | .hbm, ⟨38, _⟩ => ⟨S_, .f32⟩
  | .hbm, ⟨39, _⟩ => ⟨S6, .f32⟩
  | .hbm, ⟨40, _⟩ => ⟨S6, .f32⟩
  | .hbm, ⟨41, _⟩ => ⟨S6x1, .f32⟩
  | .hbm, ⟨42, _⟩ => ⟨S6x2048, .f32⟩
  | .hbm, ⟨43, _⟩ => ⟨S6x2048, .f32⟩
  | .hbm, ⟨44, _⟩ => ⟨S6x2048, .f32⟩
  | .hbm, ⟨45, _⟩ => ⟨S_, .f32⟩
  | .hbm, ⟨46, _⟩ => ⟨S6, .f32⟩
  | .hbm, ⟨47, _⟩ => ⟨S6, .i1⟩
  | .hbm, ⟨48, _⟩ => ⟨S6, .i32⟩
  | .hbm, ⟨49, _⟩ => ⟨S_, .i32⟩
  | .hbm, ⟨50, _⟩ => ⟨S_, .i32⟩
  | .hbm, ⟨51, _⟩ => ⟨S_, .f32⟩
  | .hbm, ⟨52, _⟩ => ⟨S6x1, .i1⟩
  | .hbm, ⟨53, _⟩ => ⟨S_, .f32⟩
  | .hbm, ⟨54, _⟩ => ⟨S_, .f32⟩
  | .hbm, ⟨55, _⟩ => ⟨S6x2048, .i1⟩
  | .hbm, ⟨56, _⟩ => ⟨S6x2048, .f32⟩
  | .hbm, ⟨57, _⟩ => ⟨S6x2048, .f32⟩
  | .hbm, ⟨58, _⟩ => ⟨S_, .f32⟩
  | .hbm, ⟨59, _⟩ => ⟨S2048, .f32⟩
  | .hbm, ⟨60, _⟩ => ⟨S2048, .f32⟩
  | .hbm, ⟨61, _⟩ => ⟨S2048, .f32⟩
  | .hbm, ⟨62, _⟩ => ⟨S6x1, .i1⟩
  | .hbm, ⟨63, _⟩ => ⟨S_, .f32⟩
  | .hbm, ⟨64, _⟩ => ⟨S_, .f32⟩
  | .hbm, ⟨65, _⟩ => ⟨S6x2048, .i1⟩
  | .hbm, ⟨66, _⟩ => ⟨S6x2048, .f32⟩
  | .hbm, ⟨67, _⟩ => ⟨S6x2048, .f32⟩
  | .hbm, ⟨68, _⟩ => ⟨S_, .f32⟩
  | .hbm, ⟨69, _⟩ => ⟨S2048, .f32⟩
  | .hbm, ⟨70, _⟩ => ⟨S2048, .f32⟩
  | .hbm, ⟨71, _⟩ => ⟨S2048, .f32⟩
  | .hbm, ⟨72, _⟩ => ⟨S_, .f32⟩
  | .hbm, ⟨73, _⟩ => ⟨S2048, .f32⟩
  | .hbm, ⟨74, _⟩ => ⟨S2048, .f32⟩
  | .hbm, ⟨75, _⟩ => ⟨S_, .f32⟩
  | .hbm, ⟨76, _⟩ => ⟨S2048, .f32⟩
  | .hbm, ⟨77, _⟩ => ⟨S2048, .f32⟩
  | .hbm, ⟨78, _⟩ => ⟨S2048, .f32⟩
  | .hbm, ⟨79, _⟩ => ⟨S_, .f32⟩
  | .hbm, ⟨80, _⟩ => ⟨S2048, .f32⟩
  | .hbm, ⟨81, _⟩ => ⟨S2048, .f32⟩
  | .hbm, ⟨82, _⟩ => ⟨S_, .f32⟩
  | .hbm, ⟨83, _⟩ => ⟨S2048, .f32⟩
  | .hbm, ⟨84, _⟩ => ⟨S2048, .f32⟩
  | .hbm, ⟨85, _⟩ => ⟨S2048, .f32⟩
  | .hbm, ⟨86, _⟩ => ⟨S1x2048, .f32⟩
  | .hbm, ⟨87, _⟩ => ⟨S6x2048, .f32⟩
  | .hbm, ⟨88, _⟩ => ⟨S6x2048, .f32⟩
  | .hbm, ⟨89, _⟩ => ⟨S6x2048, .f32⟩
  | .hbm, ⟨90, _⟩ => ⟨S_, .f32⟩
  | .hbm, ⟨91, _⟩ => ⟨S6, .f32⟩
  | .hbm, ⟨92, _⟩ => ⟨S1x2048, .f32⟩
  | .hbm, ⟨93, _⟩ => ⟨S6x2048, .f32⟩
  | .hbm, ⟨94, _⟩ => ⟨S6x2048, .f32⟩
  | .hbm, ⟨95, _⟩ => ⟨S6x2048, .f32⟩
  | .hbm, ⟨96, _⟩ => ⟨S_, .f32⟩
  | .hbm, ⟨97, _⟩ => ⟨S6, .f32⟩
  | .hbm, ⟨98, _⟩ => ⟨S6, .f32⟩
  | .hbm, ⟨99, _⟩ => ⟨S_, .f32⟩
  | .hbm, ⟨100, _⟩ => ⟨S_, .f32⟩
  | .hbm, ⟨101, _⟩ => ⟨S6, .f32⟩
  | .hbm, ⟨102, _⟩ => ⟨S6, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_8 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_v38 : Ref sig .tc := ⟨.hbm, 57, rfl⟩
abbrev main_cst_10 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_11 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v43 : Ref sig .tc := ⟨.hbm, 67, rfl⟩
abbrev main_cst_12 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_13 : Ref sig .tc := ⟨.hbm, 72, rfl⟩
abbrev main_v47 : Ref sig .tc := ⟨.hbm, 73, rfl⟩
abbrev main_v48 : Ref sig .tc := ⟨.hbm, 74, rfl⟩
abbrev main_cst_14 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_15 : Ref sig .tc := ⟨.hbm, 79, rfl⟩
abbrev main_v52 : Ref sig .tc := ⟨.hbm, 80, rfl⟩
abbrev main_v53 : Ref sig .tc := ⟨.hbm, 81, rfl⟩
abbrev main_cst_16 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_17 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_18 : Ref sig .tc := ⟨.hbm, 96, rfl⟩
abbrev main_v66 : Ref sig .tc := ⟨.hbm, 97, rfl⟩
abbrev main_v67 : Ref sig .tc := ⟨.hbm, 98, rfl⟩
abbrev main_cst_19 : Ref sig .tc := ⟨.hbm, 99, rfl⟩
abbrev main_call2_v0 : Ref sig .tc := ⟨.hbm, 100, rfl⟩
abbrev main_call2_v1 : Ref sig .tc := ⟨.hbm, 101, rfl⟩
abbrev main_v68 : Ref sig .tc := ⟨.hbm, 102, rfl⟩
abbrev main_cst_20 : Ref sig .tc := ⟨.hbm, 103, rfl⟩
abbrev main_v69 : Ref sig .tc := ⟨.hbm, 104, rfl⟩
abbrev main_cst_21 : Ref sig .tc := ⟨.hbm, 105, rfl⟩
abbrev main_v70 : Ref sig .tc := ⟨.hbm, 106, rfl⟩
abbrev main_v71 : Ref sig .tc := ⟨.hbm, 107, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S_S6 : S_.BroadcastsInDim S6 (![] : Fin 0 → Fin S6.rank)
  bcast_S16384_S16384x1_0 : S16384.BroadcastsInDim S16384x1 (![0] : Fin 1 → Fin S16384x1.rank)
  bcast_S_S6x2048 : S_.BroadcastsInDim S6x2048 (![] : Fin 0 → Fin S6x2048.rank)
  bcast_S6_S6x1_0 : S6.BroadcastsInDim S6x1 (![0] : Fin 1 → Fin S6x1.rank)
  bcast_S6x1_S6x2048_0_1 : S6x1.BroadcastsInDim S6x2048 (![0, 1] : Fin 2 → Fin S6x2048.rank)
  natLt_1_32 : 1 < 32
  reducesTo_S6_S_d0 : S6.ReducesTo [0] S_
  h_S_ : 0 < S_.numel
  reducesTo_S6x2048_S2048_d0 : S6x2048.ReducesTo [0] S2048
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S6x2048_0_1 : S1x2048.BroadcastsInDim S6x2048 (![0, 1] : Fin 2 → Fin S6x2048.rank)
  reducesTo_S6x2048_S6_d1 : S6x2048.ReducesTo [1] S6
  scatter_S6_S16384x1_S16384_n_0_0_1_wf : ScatterDims.WF S6 S16384x1 S16384 [] [0] [0] 1
  scatter_S6x2048_S16384x1_S16384x2048_1_0_0_1_wf : ScatterDims.WF S6x2048 S16384x1 S16384x2048 [1] [0] [0] 1
  gather_S6x2048_S16384x1_S16384x2048_1_0_n_n_0_1_12048_wf : GatherDims.WF S6x2048 S16384x1 S16384x2048 [1] [0] [] [0] [] 1 ![1, 2048]

variable [Facts₀]

def scatter_S6_S16384x1_S16384_n_0_0_1 : ScatterDims S6 S16384x1 S16384 where
  updateWindowDims := []
  insertedWindowDims := [0]
  scatterDimsToOperandDims := [0]
  indexVectorDim := 1
  wf := scatter_S6_S16384x1_S16384_n_0_0_1_wf
def scatter_S6x2048_S16384x1_S16384x2048_1_0_0_1 : ScatterDims S6x2048 S16384x1 S16384x2048 where
  updateWindowDims := [1]
  insertedWindowDims := [0]
  scatterDimsToOperandDims := [0]
  indexVectorDim := 1
  wf := scatter_S6x2048_S16384x1_S16384x2048_1_0_0_1_wf
def gather_S6x2048_S16384x1_S16384x2048_1_0_n_n_0_1_12048 : GatherDims S6x2048 S16384x1 S16384x2048 where
  offsetDims := [1]
  collapsedSliceDims := [0]
  operandBatchingDims := []
  startIndicesBatchingDims := []
  startIndexMap := [0]
  indexVectorDim := 1
  sliceSizes := ![1, 2048]
  wf := gather_S6x2048_S16384x1_S16384x2048_1_0_n_n_0_1_12048_wf

class Facts : Prop extends Facts₀ where

variable [Facts]
-- ==== Proof.Kernel.Kit.lean ====
/-
  The launch side of `Kernel`'s one pallas_call, around its region: what each TensorCore buffer holds when the region is
  entered (the five host operations that build the one-hot operand come first), that @main is those operations, the
  region, and then seven stretches of host operations which touch none of the region's four arrays, and that no host
  operation before or after the region writes an argument array. Then the vocabulary the body's runs are stated over:
  a window's block at a grid point, the body's one branch condition (grid coordinate 1 is zero) in closed form — it
  holds exactly at the points 0 and 16, the first point of each core's half —, and the staging memrefs a point is run on.
-/
import proofs.«413106_j3882650436522_3_alg».proof.Proof.Gen.Kernel.Launch
import proofs.«413106_j3882650436522_3_alg».proof.Proof.Gen.Kernel.Skeleton
import proofs.«413106_j3882650436522_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The seven stretches of host operations after the region, in order. -/
abbrev tailOps : List (List (HloOp τ sig (Elt F))) :=
  [hostOps1, hostOps1_1, hostOps1_2, hostOps1_3, hostOps1_4, hostOps1_5, hostOps1_6]

/-- Core `c`'s buffer contents when the region is entered: the launch memory after the five operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- @main is the host operations before the region, the region, and the seven stretches after it: it reduces to the
    region continued by those stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The operations after the region touch only the region's arrays and the buffers that bypass it. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

/-- A stretch none of whose operations writes a given buffer: each operation writes only its own result buffer. -/
abbrev KeepsArr (ops : List (HloOp τ sig (Elt F))) : Prop :=
  ops.Forall fun op => ∀ w, Proc.devRef .tc (Pipeline.arrRef spec0 w) ∉ op.writes

macro "keeps_arrays" : tactic => `(tactic|
  (simp only [List.Forall, StableHlo.TRef.unary, StableHlo.TRef.ternary, StableHlo.nullary_writes, StableHlo.unary_writes,
      StableHlo.binary_writes, StableHlo.ternary_writes, Finset.mem_singleton]
   repeat' apply And.intro
   all_goals (intro w; fin_cases w <;> exact StableHlo.devRef_ne_of_ne (by decide))))

theorem keeps1 : KeepsArr (F := F) hostOps1 := by keeps_arrays
theorem keeps1_1 : KeepsArr (F := F) hostOps1_1 := by keeps_arrays
theorem keeps1_2 : KeepsArr (F := F) hostOps1_2 := by keeps_arrays
theorem keeps1_3 : KeepsArr (F := F) hostOps1_3 := by keeps_arrays
theorem keeps1_4 : KeepsArr (F := F) hostOps1_4 := by keeps_arrays
theorem keeps1_5 : KeepsArr (F := F) hostOps1_5 := by keeps_arrays
theorem keeps1_6 : KeepsArr (F := F) hostOps1_6 := by keeps_arrays

/-- And they write none of the region's arrays. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl
  · exact (List.forall_iff_forall_mem.mp keeps1) op hop
  · exact (List.forall_iff_forall_mem.mp keeps1_1) op hop
  · exact (List.forall_iff_forall_mem.mp keeps1_2) op hop
  · exact (List.forall_iff_forall_mem.mp keeps1_3) op hop
  · exact (List.forall_iff_forall_mem.mp keeps1_4) op hop
  · exact (List.forall_iff_forall_mem.mp keeps1_5) op hop
  · exact (List.forall_iff_forall_mem.mp keeps1_6) op hop

/-! ## The argument arrays around the region -/

macro "no_write" : tactic => `(tactic|
  (simp only [List.flatten_cons, List.flatten_nil, List.append_nil, List.cons_append, List.nil_append, List.Forall,
      StableHlo.TRef.unary, StableHlo.TRef.ternary, StableHlo.nullary_writes, StableHlo.unary_writes,
      StableHlo.binary_writes, StableHlo.ternary_writes, Finset.mem_singleton]
   repeat' apply And.intro
   all_goals exact StableHlo.devRef_ne_of_ne (by decide)))

/-- No host operation before the region writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by no_write))
theorem V_main_arg1 (c : Dev nD) : V m c main_arg1 = m ((c : Thread nD τ).loc main_arg1) :=
  StableHlo.after_of_forall_not_mem (b := Proc.devRef .tc main_arg1) _ _ (List.forall_iff_forall_mem.mp (by no_write))
theorem V_main_arg2 (c : Dev nD) : V m c main_arg2 = m ((c : Thread nD τ).loc main_arg2) :=
  StableHlo.after_of_forall_not_mem (b := Proc.devRef .tc main_arg2) _ _ (List.forall_iff_forall_mem.mp (by no_write))
theorem V_main_arg3 (c : Dev nD) : V m c main_arg3 = m ((c : Thread nD τ).loc main_arg3) :=
  StableHlo.after_of_forall_not_mem (b := Proc.devRef .tc main_arg3) _ _ (List.forall_iff_forall_mem.mp (by no_write))

/-- A buffer that is no array of the region and that no operation after the region writes ends as the region found it. -/
theorem tail_kept (b : Ref sig .tc) (harr : ∀ w, Pipeline.arrRef spec0 w ≠ b)
    (hk : ∀ ops ∈ (tailOps : List (List (HloOp τ sig (Elt F)))), ∀ op ∈ ops, Proc.devRef .tc b ∉ op.writes)
    (dats : (p : Fin 1) → (c : Dev nD) → Dat τ (Elt F) Unit ℕ (UR sig nD τ) ℕ (cfgs p) c) (c : Dev nD) :
    Pipeline.afterTail₀ cfgs dats 0 (V0 m) tailOps c b = V m c b := by
  unfold Pipeline.afterTail₀
  rw [StableHlo.after_of_forall_not_mem (b := Proc.devRef .tc b) _ _ (fun op hop => by
        obtain ⟨ops, hops, hop'⟩ := List.mem_flatten.mp hop
        exact hk ops hops op hop'),
      Pipeline.withArrays_of_ne _ c (V0 m c) _ b harr]

/-- Stretch by stretch to the whole tail. -/
theorem notW (b : Ref sig .tc)
    (h1 : (hostOps1 : List (HloOp τ sig (Elt F))).Forall fun op => Proc.devRef .tc b ∉ op.writes)
    (h2 : (hostOps1_1 : List (HloOp τ sig (Elt F))).Forall fun op => Proc.devRef .tc b ∉ op.writes)
    (h3 : (hostOps1_2 : List (HloOp τ sig (Elt F))).Forall fun op => Proc.devRef .tc b ∉ op.writes)
    (h4 : (hostOps1_3 : List (HloOp τ sig (Elt F))).Forall fun op => Proc.devRef .tc b ∉ op.writes)
    (h5 : (hostOps1_4 : List (HloOp τ sig (Elt F))).Forall fun op => Proc.devRef .tc b ∉ op.writes)
    (h6 : (hostOps1_5 : List (HloOp τ sig (Elt F))).Forall fun op => Proc.devRef .tc b ∉ op.writes)
    (h7 : (hostOps1_6 : List (HloOp τ sig (Elt F))).Forall fun op => Proc.devRef .tc b ∉ op.writes) :
    ∀ ops ∈ (tailOps : List (List (HloOp τ sig (Elt F)))), ∀ op ∈ ops, Proc.devRef .tc b ∉ op.writes := by
  intro ops hops op hop
  simp only [List.mem_cons, List.mem_nil_iff, or_false] at hops
  rcases hops with rfl | rfl | rfl | rfl | rfl | rfl | rfl
  · exact (List.forall_iff_forall_mem.mp h1) op hop
  · exact (List.forall_iff_forall_mem.mp h2) op hop
  · exact (List.forall_iff_forall_mem.mp h3) op hop
  · exact (List.forall_iff_forall_mem.mp h4) op hop
  · exact (List.forall_iff_forall_mem.mp h5) op hop
  · exact (List.forall_iff_forall_mem.mp h6) op hop
  · exact (List.forall_iff_forall_mem.mp h7) op hop

/-- No host operation after the region writes `main_arg1`, `main_arg2` or `main_arg3`: each ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) :=
  (tail_kept m main_arg1 (by decide) (notW main_arg1 (by no_write) (by no_write) (by no_write) (by no_write) (by no_write) (by no_write) (by no_write)) dats c).trans (V_main_arg1 m c)
theorem W_main_arg2 (dats : (p : Fin 1) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) :=
  (tail_kept m main_arg2 (by decide) (notW main_arg2 (by no_write) (by no_write) (by no_write) (by no_write) (by no_write) (by no_write) (by no_write)) dats c).trans (V_main_arg2 m c)
theorem W_main_arg3 (dats : (p : Fin 1) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) :=
  (tail_kept m main_arg3 (by decide) (notW main_arg3 (by no_write) (by no_write) (by no_write) (by no_write) (by no_write) (by no_write) (by no_write)) dats c).trans (V_main_arg3 m c)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a frame run whose post names every array of the region and every bypassing buffer: the four argument arrays
    end as launched (the staged input by the library's reading of an input window's array, the other three by the
    two lemmas above). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c)⟩) h

/-! ## The body's branch condition -/

/-- The condition of the body's one `scf.if`: grid coordinate 1 is zero. -/
abbrev cond0_0 (i : grid0.Coords) : Prop := (Scalar.cmpi .ne (Scalar.extui (Scalar.cmpi .eq (BitVec.ofNat 32 (i 1).val) 0#32)) 0#32) = 1#1
/-- It holds at the first point of each core's sixteen: decided over the grid. -/
theorem hcond0_0 : ∀ t : Fin cfg0.N, cond0_0 (grid0.coords t) ↔ t.val % 16 = 0 :=
  (by decide +kernel : ∀ t : Fin grid0.N, cond0_0 (grid0.coords t) ↔ t.val % 16 = 0)

/-! ## The staging memrefs a point is run on -/

/-- One staging buffer of each output window, through which its contents are stated. -/
abbrev VO0_2 : View sig .tc .vmem S1x6x2048 .f32 := (Memref.whole cc0_stg2_0 : Memref sig .tc .vmem S1x6x2048 .f32).view
abbrev VO0_3 : View sig .tc .vmem S1x6x2048 .f32 := (Memref.whole cc0_stg3_0 : Memref sig .tc .vmem S1x6x2048 .f32).view
/-- Each window's current staging memref at point `t`, as the pipeline passes it, and its wholeness. -/
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x6x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x6x2048 .f32 := win0_3.stage (cfg0.slots t 3)
abbrev hs0_3 (t : Fin cfg0.N) : (ms0_3 t).IsWhole := hstage0_3 ((cfg0.slots t 3).cast nbuf0_3)

end Cert.Kernel.Frm

end
-- ==== Proof.Kernel.RunA.lean ====
/-
  The kernel body run whole at a point where grid coordinate 1 is zero (the first point of a core's half): both
  accumulators are zeroed and then the point's two products are added, so each output's staging buffer ends with two
  whole-block stores, the zero block under the sum. The stores are found by running the body; they are the witness.
-/
import proofs.«413106_j3882650436522_3_alg».proof.Proof.Kernel.Kit

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the two outputs' staging memrefs, as pieces (last first), at a point of the
    zeroing case, with the proof that on whole staging memrefs — the inputs' at their contents, the outputs' at
    anything — the body runs to the continuation holding the inputs' as they were and each output's buffer with its
    pieces written. -/
noncomputable def kernelRun0_A (c : Dev nD) (i : grid0.Coords) (arg2 : Memref sig .tc .vmem S512x2048 .f32) (harg2 : arg2.IsWhole) (arg3 : Memref sig .tc .vmem S6x512 .f32) (harg3 : arg3.IsWhole) (arg4 : Memref sig .tc .vmem S1x6x2048 .f32) (harg4 : arg4.IsWhole) (arg5 : Memref sig .tc .vmem S1x6x2048 .f32) (harg5 : arg5.IsWhole) (hc0 : cond0_0 i)
    (x0 : Vec F S512x2048 .f32) (x1 : Vec F S6x512 .f32) :
    Σ' (L2 : List (View.Piece (Elt F) S1x6x2048 .f32)), { L3 : List (View.Piece (Elt F) S1x6x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__segment_sums_kernel i arg2 harg2 arg3 harg3 arg4 harg4 arg5 harg5) K } := by
  refine ⟨?_, ?_, fun E K => ?run⟩
  case run =>
    simp only [cc0__segment_sums_kernel_eq_skeleton]; unfold cc0__segment_sums_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.Kernel.Frm

end
-- ==== Proof.Kernel.RunB.lean ====
/-
  The kernel body run whole at a point where grid coordinate 1 is not zero: nothing is zeroed; each accumulator is
  loaded as the point before left it and stored back with the point's product added, one whole-block store each.
-/
import proofs.«413106_j3882650436522_3_alg».proof.Proof.Kernel.RunA

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the two outputs' staging memrefs, as pieces, at a point of the accumulating case,
    with the proof that on whole staging memrefs — the inputs' at their contents, the outputs' at their running
    contents `xo2`, `xo3` — the body runs to the continuation holding the inputs' as they were and each output's buffer
    with its pieces written. -/
noncomputable def kernelRun0_B (c : Dev nD) (i : grid0.Coords) (arg2 : Memref sig .tc .vmem S512x2048 .f32) (harg2 : arg2.IsWhole) (arg3 : Memref sig .tc .vmem S6x512 .f32) (harg3 : arg3.IsWhole) (arg4 : Memref sig .tc .vmem S1x6x2048 .f32) (harg4 : arg4.IsWhole) (arg5 : Memref sig .tc .vmem S1x6x2048 .f32) (harg5 : arg5.IsWhole) (hc0 : ¬cond0_0 i)
    (x0 : Vec F S512x2048 .f32) (x1 : Vec F S6x512 .f32) (xo2 : Vec F S1x6x2048 .f32) (xo3 : Vec F S1x6x2048 .f32) :
    Σ' (L2 : List (View.Piece (Elt F) S1x6x2048 .f32)), { L3 : List (View.Piece (Elt F) S1x6x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__segment_sums_kernel i arg2 harg2 arg3 harg3 arg4 harg4 arg5 harg5) K } := by
  refine ⟨?_, ?_, fun E K => ?run⟩
  case run =>
    simp only [cc0__segment_sums_kernel_eq_skeleton]; unfold cc0__segment_sums_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.Kernel.Frm

end
-- ==== Proof.Kernel.Data.lean ====
/-
  The proof data of `Kernel`'s pallas_call. Per case of the body's one branch, the stores found by the whole-body runs
  cover each output's block, so what a case leaves in an output's staging buffer is those stores read back. Point
  by point: at the first point of a core's sixteen the zeroing case runs on the point's two input blocks; at every
  other point the accumulating case runs on the input blocks and on what the point before left (the pipeline writes
  an output's block back only after a core's last point, so between two points of one core the buffer is untouched).
-/
import proofs.«413106_j3882650436522_3_alg».proof.Proof.Kernel.RunB

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the outputs' staging buffers -/

theorem cover0_A_2 (c : Dev nD) (i : grid0.Coords) (arg2 : Memref sig .tc .vmem S512x2048 .f32) (harg2 : arg2.IsWhole) (arg3 : Memref sig .tc .vmem S6x512 .f32) (harg3 : arg3.IsWhole) (arg4 : Memref sig .tc .vmem S1x6x2048 .f32) (harg4 : arg4.IsWhole) (arg5 : Memref sig .tc .vmem S1x6x2048 .f32) (harg5 : arg5.IsWhole) (hc0 : cond0_0 i)
    (x0 : Vec F S512x2048 .f32) (x1 : Vec F S6x512 .f32) (y : S1x6x2048.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S1x6x2048.size (by sl_kernel_rfl) y
theorem cover0_A_3 (c : Dev nD) (i : grid0.Coords) (arg2 : Memref sig .tc .vmem S512x2048 .f32) (harg2 : arg2.IsWhole) (arg3 : Memref sig .tc .vmem S6x512 .f32) (harg3 : arg3.IsWhole) (arg4 : Memref sig .tc .vmem S1x6x2048 .f32) (harg4 : arg4.IsWhole) (arg5 : Memref sig .tc .vmem S1x6x2048 .f32) (harg5 : arg5.IsWhole) (hc0 : cond0_0 i)
    (x0 : Vec F S512x2048 .f32) (x1 : Vec F S6x512 .f32) (y : S1x6x2048.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S1x6x2048.size (by sl_kernel_rfl) y
theorem cover0_B_2 (c : Dev nD) (i : grid0.Coords) (arg2 : Memref sig .tc .vmem S512x2048 .f32) (harg2 : arg2.IsWhole) (arg3 : Memref sig .tc .vmem S6x512 .f32) (harg3 : arg3.IsWhole) (arg4 : Memref sig .tc .vmem S1x6x2048 .f32) (harg4 : arg4.IsWhole) (arg5 : Memref sig .tc .vmem S1x6x2048 .f32) (harg5 : arg5.IsWhole) (hc0 : ¬cond0_0 i)
    (x0 : Vec F S512x2048 .f32) (x1 : Vec F S6x512 .f32) (xo2 xo3 : Vec F S1x6x2048 .f32) (y : S1x6x2048.Idx) :
    ∃ pc ∈ (kernelRun0_B c i arg2 harg2 arg3 harg3 arg4 harg4 arg5 harg5 hc0 x0 x1 xo2 xo3).1, y ∈ pc.1.set :=
  View.cover_of_tiledL (kernelRun0_B c i arg2 harg2 arg3 harg3 arg4 harg4 arg5 harg5 hc0 x0 x1 xo2 xo3).1 S1x6x2048.size (by sl_kernel_rfl) y
theorem cover0_B_3 (c : Dev nD) (i : grid0.Coords) (arg2 : Memref sig .tc .vmem S512x2048 .f32) (harg2 : arg2.IsWhole) (arg3 : Memref sig .tc .vmem S6x512 .f32) (harg3 : arg3.IsWhole) (arg4 : Memref sig .tc .vmem S1x6x2048 .f32) (harg4 : arg4.IsWhole) (arg5 : Memref sig .tc .vmem S1x6x2048 .f32) (harg5 : arg5.IsWhole) (hc0 : ¬cond0_0 i)
    (x0 : Vec F S512x2048 .f32) (x1 : Vec F S6x512 .f32) (xo2 xo3 : Vec F S1x6x2048 .f32) (y : S1x6x2048.Idx) :
    ∃ pc ∈ (kernelRun0_B c i arg2 harg2 arg3 harg3 arg4 harg4 arg5 harg5 hc0 x0 x1 xo2 xo3).2.1, y ∈ pc.1.set :=
  View.cover_of_tiledL (kernelRun0_B c i arg2 harg2 arg3 harg3 arg4 harg4 arg5 harg5 hc0 x0 x1 xo2 xo3).2.1 S1x6x2048.size (by sl_kernel_rfl) y

/-- What the zeroing case leaves in each output's staging buffer: its stores read back. -/
def out0_A_2 (c : Dev nD) (i : grid0.Coords) (arg2 : Memref sig .tc .vmem S512x2048 .f32) (harg2 : arg2.IsWhole) (arg3 : Memref sig .tc .vmem S6x512 .f32) (harg3 : arg3.IsWhole) (arg4 : Memref sig .tc .vmem S1x6x2048 .f32) (harg4 : arg4.IsWhole) (arg5 : Memref sig .tc .vmem S1x6x2048 .f32) (harg5 : arg5.IsWhole) (hc0 : cond0_0 i)
    (x0 : Vec F S512x2048 .f32) (x1 : Vec F S6x512 .f32) : Vec F S1x6x2048 .f32 :=
  VO0_2.read (Elt F) (VO0_2.writes (Elt F) VO0_2.junk (kernelRun0_A c i arg2 harg2 arg3 harg3 arg4 harg4 arg5 harg5 hc0 x0 x1).1)
def out0_A_3 (c : Dev nD) (i : grid0.Coords) (arg2 : Memref sig .tc .vmem S512x2048 .f32) (harg2 : arg2.IsWhole) (arg3 : Memref sig .tc .vmem S6x512 .f32) (harg3 : arg3.IsWhole) (arg4 : Memref sig .tc .vmem S1x6x2048 .f32) (harg4 : arg4.IsWhole) (arg5 : Memref sig .tc .vmem S1x6x2048 .f32) (harg5 : arg5.IsWhole) (hc0 : cond0_0 i)
    (x0 : Vec F S512x2048 .f32) (x1 : Vec F S6x512 .f32) : Vec F S1x6x2048 .f32 :=
  VO0_3.read (Elt F) (VO0_3.writes (Elt F) VO0_3.junk (kernelRun0_A c i arg2 harg2 arg3 harg3 arg4 harg4 arg5 harg5 hc0 x0 x1).2.1)
/-- What the accumulating case leaves, over what the point before left. -/
def out0_B_2 (c : Dev nD) (i : grid0.Coords) (arg2 : Memref sig .tc .vmem S512x2048 .f32) (harg2 : arg2.IsWhole) (arg3 : Memref sig .tc .vmem S6x512 .f32) (harg3 : arg3.IsWhole) (arg4 : Memref sig .tc .vmem S1x6x2048 .f32) (harg4 : arg4.IsWhole) (arg5 : Memref sig .tc .vmem S1x6x2048 .f32) (harg5 : arg5.IsWhole) (hc0 : ¬cond0_0 i)
    (x0 : Vec F S512x2048 .f32) (x1 : Vec F S6x512 .f32) (xo2 xo3 : Vec F S1x6x2048 .f32) : Vec F S1x6x2048 .f32 :=
  VO0_2.read (Elt F) (VO0_2.writes (Elt F) VO0_2.junk (kernelRun0_B c i arg2 harg2 arg3 harg3 arg4 harg4 arg5 harg5 hc0 x0 x1 xo2 xo3).1)
def out0_B_3 (c : Dev nD) (i : grid0.Coords) (arg2 : Memref sig .tc .vmem S512x2048 .f32) (harg2 : arg2.IsWhole) (arg3 : Memref sig .tc .vmem S6x512 .f32) (harg3 : arg3.IsWhole) (arg4 : Memref sig .tc .vmem S1x6x2048 .f32) (harg4 : arg4.IsWhole) (arg5 : Memref sig .tc .vmem S1x6x2048 .f32) (harg5 : arg5.IsWhole) (hc0 : ¬cond0_0 i)
    (x0 : Vec F S512x2048 .f32) (x1 : Vec F S6x512 .f32) (xo2 xo3 : Vec F S1x6x2048 .f32) : Vec F S1x6x2048 .f32 :=
  VO0_3.read (Elt F) (VO0_3.writes (Elt F) VO0_3.junk (kernelRun0_B c i arg2 harg2 arg3 harg3 arg4 harg4 arg5 harg5 hc0 x0 x1 xo2 xo3).2.1)

/-! ## What the outputs hold after each point -/

/-- The two accumulators' staging buffers after the body at position `n`: the zeroing case at the positions
    divisible by 16, else the accumulating case over what position `n - 1` left. -/
def outsAt0 (c : Dev nD) : (n : ℕ) → n < cfg0.N → Vec F S1x6x2048 .f32 × Vec F S1x6x2048 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩),
      out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩))
  | n + 1, hn =>
    if h0 : (n + 1) % 16 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩),
        out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2,
        out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2)

/-- `outsAt0` at a point of the zeroing case. -/
theorem outsAt0_A (c : Dev nD) (t : Fin cfg0.N) (h0 : t.val % 16 = 0) :
    outsAt0 m c t.val t.isLt = (out0_A_2 c (grid0.coords t) (ms0_0 t) (hs0_0 t) (ms0_1 t) (hs0_1 t) (ms0_2 t) (hs0_2 t) (ms0_3 t) (hs0_3 t) ((hcond0_0 t).mpr h0) (iblk m c 0 t) (iblk m c 1 t),
      out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t)) := by
  obtain ⟨n, hn⟩ := t
  cases n with
  | zero => exact rfl
  | succ n => exact (dif_pos h0).trans rfl

/-- `outsAt0` at a point of the accumulating case: over what the point before left. -/
theorem outsAt0_B (c : Dev nD) (t : Fin cfg0.N) (h0 : ¬t.val % 16 = 0) :
    outsAt0 m c t.val t.isLt = (out0_B_2 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2,
      out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and the two
    outputs' at `outsAt0`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a point of the accumulating case an output's current staging buffer holds what the body left at the point
    before: the point is not the first, and the buffer was not written back between. -/
theorem before0_2_B (c : Dev nD) (t : Fin cfg0.N) (h0 : ¬t.val % 16 = 0) (d) :
    (dats m 0 c).before 2 t d = (outsAt0 m c (t.val - 1) (Nat.lt_of_le_of_lt (Nat.sub_le _ _) t.isLt)).1 := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (fun _ => rfl) (fun _ _ => rfl)]
  dsimp only [dats]
theorem before0_3_B (c : Dev nD) (t : Fin cfg0.N) (h0 : ¬t.val % 16 = 0) (d) :
    (dats m 0 c).before 3 t d = (outsAt0 m c (t.val - 1) (Nat.lt_of_le_of_lt (Nat.sub_le _ _) t.isLt)).2 := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (fun _ => rfl) (fun _ _ => rfl)]
  dsimp only [dats]

end Cert.Kernel.Frm

end
-- ==== Proof.Kernel.Frame.lean ====
/-
  The frame of `Kernel`'s pallas_call and of @main around it: with the proof data of the sibling module the body
  obligation holds at every point (the closed form of the branch condition picks the case, and in the accumulating
  case each output's buffer holds what the point before left), so @main runs — the host operations, the region, the
  host operations after it — and the four argument arrays end unchanged.
-/
import proofs.«413106_j3882650436522_3_alg».proof.Proof.Kernel.Data

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point: the inputs' memrefs hold their blocks; the closed form says which case the point is in;
    in the accumulating case each output's memref holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 32 := lt_of_lt_of_eq t.isLt (show cfg0.N = 32 from N_0)
  by_cases h0 : t.val % 16 = 0
  · have hcA : cond0_0 (grid0.coords t) := (hcond0_0 t).mpr h0
    rw [outsAt0_A m c t h0]
    (try dsimp only)
    unfold out0_A_2 out0_A_3
    iintro ⟨HΦ, Ho, ⟨%d0, H0⟩, ⟨%d1, H1⟩, ⟨%d2, H2⟩, ⟨%d3, H3⟩⟩
    iapply ((kernelRun0_A c (grid0.coords t) (ms0_0 t) (hs0_0 t) (ms0_1 t) (hs0_1 t) (ms0_2 t) (hs0_2 t) (ms0_3 t) (hs0_3 t) hcA (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro
      exact View.read_writes_of_cover (ms0_2 t).view e2 VO0_2 VO0_2.junk
        (kernelRun0_A c (grid0.coords t) (ms0_0 t) (hs0_0 t) (ms0_1 t) (hs0_1 t) (ms0_2 t) (hs0_2 t) (ms0_3 t) (hs0_3 t) hcA (iblk m c 0 t) (iblk m c 1 t)).1
        (cover0_A_2 c (grid0.coords t) (ms0_0 t) (hs0_0 t) (ms0_1 t) (hs0_1 t) (ms0_2 t) (hs0_2 t) (ms0_3 t) (hs0_3 t) hcA (iblk m c 0 t) (iblk m c 1 t))
    unfold owns; iexists _; isplitr
    swap; · iexact H3
    ipureintro
    exact View.read_writes_of_cover (ms0_3 t).view e3 VO0_3 VO0_3.junk
      (kernelRun0_A c (grid0.coords t) (ms0_0 t) (hs0_0 t) (ms0_1 t) (hs0_1 t) (ms0_2 t) (hs0_2 t) (ms0_3 t) (hs0_3 t) hcA (iblk m c 0 t) (iblk m c 1 t)).2.1
      (cover0_A_3 c (grid0.coords t) (ms0_0 t) (hs0_0 t) (ms0_1 t) (hs0_1 t) (ms0_2 t) (hs0_2 t) (ms0_3 t) (hs0_3 t) hcA (iblk m c 0 t) (iblk m c 1 t))
  · have hcB : ¬cond0_0 (grid0.coords t) := fun h => h0 ((hcond0_0 t).mp h)
    rw [outsAt0_B m c t h0]
    simp only [before0_2_B m c t h0, before0_3_B m c t h0]
    (try dsimp only)
    unfold out0_B_2 out0_B_3
    iintro ⟨HΦ, Ho, ⟨%d0, H0⟩, ⟨%d1, H1⟩, ⟨%d2, H2⟩, ⟨%d3, H3⟩⟩
    iapply ((kernelRun0_B c (grid0.coords t) (ms0_0 t) (hs0_0 t) (ms0_1 t) (hs0_1 t) (ms0_2 t) (hs0_2 t) (ms0_3 t) (hs0_3 t) hcB (iblk m c 0 t) (iblk m c 1 t)
      (outsAt0 m c (t.val - 1) (Nat.lt_of_le_of_lt (Nat.sub_le _ _) t.isLt)).1 (outsAt0 m c (t.val - 1) (Nat.lt_of_le_of_lt (Nat.sub_le _ _) t.isLt)).2).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro
      exact View.read_writes_of_cover (ms0_2 t).view e2 VO0_2 VO0_2.junk
        (kernelRun0_B c (grid0.coords t) (ms0_0 t) (hs0_0 t) (ms0_1 t) (hs0_1 t) (ms0_2 t) (hs0_2 t) (ms0_3 t) (hs0_3 t) hcB (iblk m c 0 t) (iblk m c 1 t)
          (outsAt0 m c (t.val - 1) (Nat.lt_of_le_of_lt (Nat.sub_le _ _) t.isLt)).1 (outsAt0 m c (t.val - 1) (Nat.lt_of_le_of_lt (Nat.sub_le _ _) t.isLt)).2).1
        (cover0_B_2 c (grid0.coords t) (ms0_0 t) (hs0_0 t) (ms0_1 t) (hs0_1 t) (ms0_2 t) (hs0_2 t) (ms0_3 t) (hs0_3 t) hcB (iblk m c 0 t) (iblk m c 1 t)
          (outsAt0 m c (t.val - 1) (Nat.lt_of_le_of_lt (Nat.sub_le _ _) t.isLt)).1 (outsAt0 m c (t.val - 1) (Nat.lt_of_le_of_lt (Nat.sub_le _ _) t.isLt)).2)
    unfold owns; iexists _; isplitr
    swap; · iexact H3
    ipureintro
    exact View.read_writes_of_cover (ms0_3 t).view e3 VO0_3 VO0_3.junk
      (kernelRun0_B c (grid0.coords t) (ms0_0 t) (hs0_0 t) (ms0_1 t) (hs0_1 t) (ms0_2 t) (hs0_2 t) (ms0_3 t) (hs0_3 t) hcB (iblk m c 0 t) (iblk m c 1 t)
        (outsAt0 m c (t.val - 1) (Nat.lt_of_le_of_lt (Nat.sub_le _ _) t.isLt)).1 (outsAt0 m c (t.val - 1) (Nat.lt_of_le_of_lt (Nat.sub_le _ _) t.isLt)).2).2.1
      (cover0_B_3 c (grid0.coords t) (ms0_0 t) (hs0_0 t) (ms0_1 t) (hs0_1 t) (ms0_2 t) (hs0_2 t) (ms0_3 t) (hs0_3 t) hcB (iblk m c 0 t) (iblk m c 1 t)
        (outsAt0 m c (t.val - 1) (Nat.lt_of_le_of_lt (Nat.sub_le _ _) t.isLt)).1 (outsAt0 m c (t.val - 1) (Nat.lt_of_le_of_lt (Nat.sub_le _ _) t.isLt)).2)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the region at what the
    library computes from the proof data and every other unscoped buffer as the operations after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: @main runs and its four argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Frm

end
-- ==== Proof.KernelIdeal.Kit.lean ====
/-
  The launch side of `KernelIdeal`'s one pallas_call, around its region: what each TensorCore buffer holds when the region is
  entered (the five host operations that build the one-hot operand come first), that @main is those operations, the
  region, and then seven stretches of host operations which touch none of the region's four arrays, and that no host
  operation before or after the region writes an argument array. Then the vocabulary the body's runs are stated over:
  a window's block at a grid point, the body's one branch condition (grid coordinate 1 is zero) in closed form — it
  holds exactly at the points 0 and 16, the first point of each core's half —, and the staging memrefs a point is run on.
-/
import proofs.«413106_j3882650436522_3_alg».proof.Proof.Gen.KernelIdeal.Launch
import proofs.«413106_j3882650436522_3_alg».proof.Proof.Gen.KernelIdeal.Skeleton
import proofs.«413106_j3882650436522_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The seven stretches of host operations after the region, in order. -/
abbrev tailOps : List (List (HloOp τ sig (Elt F))) :=
  [hostOps1, hostOps1_1, hostOps1_2, hostOps1_3, hostOps1_4, hostOps1_5, hostOps1_6]

/-- Core `c`'s buffer contents when the region is entered: the launch memory after the five operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- @main is the host operations before the region, the region, and the seven stretches after it: it reduces to the
    region continued by those stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The operations after the region touch only the region's arrays and the buffers that bypass it. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

/-- A stretch none of whose operations writes a given buffer: each operation writes only its own result buffer. -/
abbrev KeepsArr (ops : List (HloOp τ sig (Elt F))) : Prop :=
  ops.Forall fun op => ∀ w, Proc.devRef .tc (Pipeline.arrRef spec0 w) ∉ op.writes

macro "keeps_arrays" : tactic => `(tactic|
  (simp only [List.Forall, StableHlo.TRef.unary, StableHlo.TRef.ternary, StableHlo.nullary_writes, StableHlo.unary_writes,
      StableHlo.binary_writes, StableHlo.ternary_writes, Finset.mem_singleton]
   repeat' apply And.intro
   all_goals (intro w; fin_cases w <;> exact StableHlo.devRef_ne_of_ne (by decide))))

theorem keeps1 : KeepsArr (F := F) hostOps1 := by keeps_arrays
theorem keeps1_1 : KeepsArr (F := F) hostOps1_1 := by keeps_arrays
theorem keeps1_2 : KeepsArr (F := F) hostOps1_2 := by keeps_arrays
theorem keeps1_3 : KeepsArr (F := F) hostOps1_3 := by keeps_arrays
theorem keeps1_4 : KeepsArr (F := F) hostOps1_4 := by keeps_arrays
theorem keeps1_5 : KeepsArr (F := F) hostOps1_5 := by keeps_arrays
theorem keeps1_6 : KeepsArr (F := F) hostOps1_6 := by keeps_arrays

/-- And they write none of the region's arrays. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl
  · exact (List.forall_iff_forall_mem.mp keeps1) op hop
  · exact (List.forall_iff_forall_mem.mp keeps1_1) op hop
  · exact (List.forall_iff_forall_mem.mp keeps1_2) op hop
  · exact (List.forall_iff_forall_mem.mp keeps1_3) op hop
  · exact (List.forall_iff_forall_mem.mp keeps1_4) op hop
  · exact (List.forall_iff_forall_mem.mp keeps1_5) op hop
  · exact (List.forall_iff_forall_mem.mp keeps1_6) op hop

/-! ## The argument arrays around the region -/

macro "no_write" : tactic => `(tactic|
  (simp only [List.flatten_cons, List.flatten_nil, List.append_nil, List.cons_append, List.nil_append, List.Forall,
      StableHlo.TRef.unary, StableHlo.TRef.ternary, StableHlo.nullary_writes, StableHlo.unary_writes,
      StableHlo.binary_writes, StableHlo.ternary_writes, Finset.mem_singleton]
   repeat' apply And.intro
   all_goals exact StableHlo.devRef_ne_of_ne (by decide)))

/-- No host operation before the region writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by no_write))
theorem V_main_arg1 (c : Dev nD) : V m c main_arg1 = m ((c : Thread nD τ).loc main_arg1) :=
  StableHlo.after_of_forall_not_mem (b := Proc.devRef .tc main_arg1) _ _ (List.forall_iff_forall_mem.mp (by no_write))
theorem V_main_arg2 (c : Dev nD) : V m c main_arg2 = m ((c : Thread nD τ).loc main_arg2) :=
  StableHlo.after_of_forall_not_mem (b := Proc.devRef .tc main_arg2) _ _ (List.forall_iff_forall_mem.mp (by no_write))
theorem V_main_arg3 (c : Dev nD) : V m c main_arg3 = m ((c : Thread nD τ).loc main_arg3) :=
  StableHlo.after_of_forall_not_mem (b := Proc.devRef .tc main_arg3) _ _ (List.forall_iff_forall_mem.mp (by no_write))

/-- A buffer that is no array of the region and that no operation after the region writes ends as the region found it. -/
theorem tail_kept (b : Ref sig .tc) (harr : ∀ w, Pipeline.arrRef spec0 w ≠ b)
    (hk : ∀ ops ∈ (tailOps : List (List (HloOp τ sig (Elt F)))), ∀ op ∈ ops, Proc.devRef .tc b ∉ op.writes)
    (dats : (p : Fin 1) → (c : Dev nD) → Dat τ (Elt F) Unit ℕ (UR sig nD τ) ℕ (cfgs p) c) (c : Dev nD) :
    Pipeline.afterTail₀ cfgs dats 0 (V0 m) tailOps c b = V m c b := by
  unfold Pipeline.afterTail₀
  rw [StableHlo.after_of_forall_not_mem (b := Proc.devRef .tc b) _ _ (fun op hop => by
        obtain ⟨ops, hops, hop'⟩ := List.mem_flatten.mp hop
        exact hk ops hops op hop'),
      Pipeline.withArrays_of_ne _ c (V0 m c) _ b harr]

/-- Stretch by stretch to the whole tail. -/
theorem notW (b : Ref sig .tc)
    (h1 : (hostOps1 : List (HloOp τ sig (Elt F))).Forall fun op => Proc.devRef .tc b ∉ op.writes)
    (h2 : (hostOps1_1 : List (HloOp τ sig (Elt F))).Forall fun op => Proc.devRef .tc b ∉ op.writes)
    (h3 : (hostOps1_2 : List (HloOp τ sig (Elt F))).Forall fun op => Proc.devRef .tc b ∉ op.writes)
    (h4 : (hostOps1_3 : List (HloOp τ sig (Elt F))).Forall fun op => Proc.devRef .tc b ∉ op.writes)
    (h5 : (hostOps1_4 : List (HloOp τ sig (Elt F))).Forall fun op => Proc.devRef .tc b ∉ op.writes)
    (h6 : (hostOps1_5 : List (HloOp τ sig (Elt F))).Forall fun op => Proc.devRef .tc b ∉ op.writes)
    (h7 : (hostOps1_6 : List (HloOp τ sig (Elt F))).Forall fun op => Proc.devRef .tc b ∉ op.writes) :
    ∀ ops ∈ (tailOps : List (List (HloOp τ sig (Elt F)))), ∀ op ∈ ops, Proc.devRef .tc b ∉ op.writes := by
  intro ops hops op hop
  simp only [List.mem_cons, List.mem_nil_iff, or_false] at hops
  rcases hops with rfl | rfl | rfl | rfl | rfl | rfl | rfl
  · exact (List.forall_iff_forall_mem.mp h1) op hop
  · exact (List.forall_iff_forall_mem.mp h2) op hop
  · exact (List.forall_iff_forall_mem.mp h3) op hop
  · exact (List.forall_iff_forall_mem.mp h4) op hop
  · exact (List.forall_iff_forall_mem.mp h5) op hop
  · exact (List.forall_iff_forall_mem.mp h6) op hop
  · exact (List.forall_iff_forall_mem.mp h7) op hop

/-- No host operation after the region writes `main_arg1`, `main_arg2` or `main_arg3`: each ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) :=
  (tail_kept m main_arg1 (by decide) (notW main_arg1 (by no_write) (by no_write) (by no_write) (by no_write) (by no_write) (by no_write) (by no_write)) dats c).trans (V_main_arg1 m c)
theorem W_main_arg2 (dats : (p : Fin 1) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) :=
  (tail_kept m main_arg2 (by decide) (notW main_arg2 (by no_write) (by no_write) (by no_write) (by no_write) (by no_write) (by no_write) (by no_write)) dats c).trans (V_main_arg2 m c)
theorem W_main_arg3 (dats : (p : Fin 1) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) :=
  (tail_kept m main_arg3 (by decide) (notW main_arg3 (by no_write) (by no_write) (by no_write) (by no_write) (by no_write) (by no_write) (by no_write)) dats c).trans (V_main_arg3 m c)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a frame run whose post names every array of the region and every bypassing buffer: the four argument arrays
    end as launched (the staged input by the library's reading of an input window's array, the other three by the
    two lemmas above). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c)⟩) h

/-! ## The body's branch condition -/

/-- The condition of the body's one `scf.if`: grid coordinate 1 is zero. -/
abbrev cond0_0 (i : grid0.Coords) : Prop := (Scalar.cmpi .ne (Scalar.extui (Scalar.cmpi .eq (BitVec.ofNat 32 (i 1).val) 0#32)) 0#32) = 1#1
/-- It holds at the first point of each core's sixteen: decided over the grid. -/
theorem hcond0_0 : ∀ t : Fin cfg0.N, cond0_0 (grid0.coords t) ↔ t.val % 16 = 0 :=
  (by decide +kernel : ∀ t : Fin grid0.N, cond0_0 (grid0.coords t) ↔ t.val % 16 = 0)

/-! ## The staging memrefs a point is run on -/

/-- One staging buffer of each output window, through which its contents are stated. -/
abbrev VO0_2 : View sig .tc .vmem S1x6x2048 .f32 := (Memref.whole cc0_stg2_0 : Memref sig .tc .vmem S1x6x2048 .f32).view
abbrev VO0_3 : View sig .tc .vmem S1x6x2048 .f32 := (Memref.whole cc0_stg3_0 : Memref sig .tc .vmem S1x6x2048 .f32).view
/-- Each window's current staging memref at point `t`, as the pipeline passes it, and its wholeness. -/
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x6x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x6x2048 .f32 := win0_3.stage (cfg0.slots t 3)
abbrev hs0_3 (t : Fin cfg0.N) : (ms0_3 t).IsWhole := hstage0_3 ((cfg0.slots t 3).cast nbuf0_3)

end Cert.KernelIdeal.Frm

end
-- ==== Proof.KernelIdeal.RunA.lean ====
/-
  The kernel body run whole at a point where grid coordinate 1 is zero (the first point of a core's half): both
  accumulators are zeroed and then the point's two products are added, so each output's staging buffer ends with two
  whole-block stores, the zero block under the sum. The stores are found by running the body; they are the witness.
-/
import proofs.«413106_j3882650436522_3_alg».proof.Proof.KernelIdeal.Kit

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the two outputs' staging memrefs, as pieces (last first), at a point of the
    zeroing case, with the proof that on whole staging memrefs — the inputs' at their contents, the outputs' at
    anything — the body runs to the continuation holding the inputs' as they were and each output's buffer with its
    pieces written. -/
noncomputable def kernelRun0_A (c : Dev nD) (i : grid0.Coords) (arg2 : Memref sig .tc .vmem S512x2048 .f32) (harg2 : arg2.IsWhole) (arg3 : Memref sig .tc .vmem S6x512 .f32) (harg3 : arg3.IsWhole) (arg4 : Memref sig .tc .vmem S1x6x2048 .f32) (harg4 : arg4.IsWhole) (arg5 : Memref sig .tc .vmem S1x6x2048 .f32) (harg5 : arg5.IsWhole) (hc0 : cond0_0 i)
    (x0 : Vec F S512x2048 .f32) (x1 : Vec F S6x512 .f32) :
    Σ' (L2 : List (View.Piece (Elt F) S1x6x2048 .f32)), { L3 : List (View.Piece (Elt F) S1x6x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__segment_sums_kernel i arg2 harg2 arg3 harg3 arg4 harg4 arg5 harg5) K } := by
  refine ⟨?_, ?_, fun E K => ?run⟩
  case run =>
    simp only [cc0__segment_sums_kernel_eq_skeleton]; unfold cc0__segment_sums_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.KernelIdeal.Frm

end
-- ==== Proof.KernelIdeal.RunB.lean ====
/-
  The kernel body run whole at a point where grid coordinate 1 is not zero: nothing is zeroed; each accumulator is
  loaded as the point before left it and stored back with the point's product added, one whole-block store each.
-/
import proofs.«413106_j3882650436522_3_alg».proof.Proof.KernelIdeal.RunA

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the two outputs' staging memrefs, as pieces, at a point of the accumulating case,
    with the proof that on whole staging memrefs — the inputs' at their contents, the outputs' at their running
    contents `xo2`, `xo3` — the body runs to the continuation holding the inputs' as they were and each output's buffer
    with its pieces written. -/
noncomputable def kernelRun0_B (c : Dev nD) (i : grid0.Coords) (arg2 : Memref sig .tc .vmem S512x2048 .f32) (harg2 : arg2.IsWhole) (arg3 : Memref sig .tc .vmem S6x512 .f32) (harg3 : arg3.IsWhole) (arg4 : Memref sig .tc .vmem S1x6x2048 .f32) (harg4 : arg4.IsWhole) (arg5 : Memref sig .tc .vmem S1x6x2048 .f32) (harg5 : arg5.IsWhole) (hc0 : ¬cond0_0 i)
    (x0 : Vec F S512x2048 .f32) (x1 : Vec F S6x512 .f32) (xo2 : Vec F S1x6x2048 .f32) (xo3 : Vec F S1x6x2048 .f32) :
    Σ' (L2 : List (View.Piece (Elt F) S1x6x2048 .f32)), { L3 : List (View.Piece (Elt F) S1x6x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__segment_sums_kernel i arg2 harg2 arg3 harg3 arg4 harg4 arg5 harg5) K } := by
  refine ⟨?_, ?_, fun E K => ?run⟩
  case run =>
    simp only [cc0__segment_sums_kernel_eq_skeleton]; unfold cc0__segment_sums_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.KernelIdeal.Frm

end
-- ==== Proof.KernelIdeal.Data.lean ====
/-
  The proof data of `KernelIdeal`'s pallas_call. Per case of the body's one branch, the stores found by the whole-body runs
  cover each output's block, so what a case leaves in an output's staging buffer is those stores read back. Point
  by point: at the first point of a core's sixteen the zeroing case runs on the point's two input blocks; at every
  other point the accumulating case runs on the input blocks and on what the point before left (the pipeline writes
  an output's block back only after a core's last point, so between two points of one core the buffer is untouched).
-/
import proofs.«413106_j3882650436522_3_alg».proof.Proof.KernelIdeal.RunB

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the outputs' staging buffers -/

theorem cover0_A_2 (c : Dev nD) (i : grid0.Coords) (arg2 : Memref sig .tc .vmem S512x2048 .f32) (harg2 : arg2.IsWhole) (arg3 : Memref sig .tc .vmem S6x512 .f32) (harg3 : arg3.IsWhole) (arg4 : Memref sig .tc .vmem S1x6x2048 .f32) (harg4 : arg4.IsWhole) (arg5 : Memref sig .tc .vmem S1x6x2048 .f32) (harg5 : arg5.IsWhole) (hc0 : cond0_0 i)
    (x0 : Vec F S512x2048 .f32) (x1 : Vec F S6x512 .f32) (y : S1x6x2048.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S1x6x2048.size (by sl_kernel_rfl) y
theorem cover0_A_3 (c : Dev nD) (i : grid0.Coords) (arg2 : Memref sig .tc .vmem S512x2048 .f32) (harg2 : arg2.IsWhole) (arg3 : Memref sig .tc .vmem S6x512 .f32) (harg3 : arg3.IsWhole) (arg4 : Memref sig .tc .vmem S1x6x2048 .f32) (harg4 : arg4.IsWhole) (arg5 : Memref sig .tc .vmem S1x6x2048 .f32) (harg5 : arg5.IsWhole) (hc0 : cond0_0 i)
    (x0 : Vec F S512x2048 .f32) (x1 : Vec F S6x512 .f32) (y : S1x6x2048.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S1x6x2048.size (by sl_kernel_rfl) y
theorem cover0_B_2 (c : Dev nD) (i : grid0.Coords) (arg2 : Memref sig .tc .vmem S512x2048 .f32) (harg2 : arg2.IsWhole) (arg3 : Memref sig .tc .vmem S6x512 .f32) (harg3 : arg3.IsWhole) (arg4 : Memref sig .tc .vmem S1x6x2048 .f32) (harg4 : arg4.IsWhole) (arg5 : Memref sig .tc .vmem S1x6x2048 .f32) (harg5 : arg5.IsWhole) (hc0 : ¬cond0_0 i)
    (x0 : Vec F S512x2048 .f32) (x1 : Vec F S6x512 .f32) (xo2 xo3 : Vec F S1x6x2048 .f32) (y : S1x6x2048.Idx) :
    ∃ pc ∈ (kernelRun0_B c i arg2 harg2 arg3 harg3 arg4 harg4 arg5 harg5 hc0 x0 x1 xo2 xo3).1, y ∈ pc.1.set :=
  View.cover_of_tiledL (kernelRun0_B c i arg2 harg2 arg3 harg3 arg4 harg4 arg5 harg5 hc0 x0 x1 xo2 xo3).1 S1x6x2048.size (by sl_kernel_rfl) y
theorem cover0_B_3 (c : Dev nD) (i : grid0.Coords) (arg2 : Memref sig .tc .vmem S512x2048 .f32) (harg2 : arg2.IsWhole) (arg3 : Memref sig .tc .vmem S6x512 .f32) (harg3 : arg3.IsWhole) (arg4 : Memref sig .tc .vmem S1x6x2048 .f32) (harg4 : arg4.IsWhole) (arg5 : Memref sig .tc .vmem S1x6x2048 .f32) (harg5 : arg5.IsWhole) (hc0 : ¬cond0_0 i)
    (x0 : Vec F S512x2048 .f32) (x1 : Vec F S6x512 .f32) (xo2 xo3 : Vec F S1x6x2048 .f32) (y : S1x6x2048.Idx) :
    ∃ pc ∈ (kernelRun0_B c i arg2 harg2 arg3 harg3 arg4 harg4 arg5 harg5 hc0 x0 x1 xo2 xo3).2.1, y ∈ pc.1.set :=
  View.cover_of_tiledL (kernelRun0_B c i arg2 harg2 arg3 harg3 arg4 harg4 arg5 harg5 hc0 x0 x1 xo2 xo3).2.1 S1x6x2048.size (by sl_kernel_rfl) y

/-- What the zeroing case leaves in each output's staging buffer: its stores read back. -/
def out0_A_2 (c : Dev nD) (i : grid0.Coords) (arg2 : Memref sig .tc .vmem S512x2048 .f32) (harg2 : arg2.IsWhole) (arg3 : Memref sig .tc .vmem S6x512 .f32) (harg3 : arg3.IsWhole) (arg4 : Memref sig .tc .vmem S1x6x2048 .f32) (harg4 : arg4.IsWhole) (arg5 : Memref sig .tc .vmem S1x6x2048 .f32) (harg5 : arg5.IsWhole) (hc0 : cond0_0 i)
    (x0 : Vec F S512x2048 .f32) (x1 : Vec F S6x512 .f32) : Vec F S1x6x2048 .f32 :=
  VO0_2.read (Elt F) (VO0_2.writes (Elt F) VO0_2.junk (kernelRun0_A c i arg2 harg2 arg3 harg3 arg4 harg4 arg5 harg5 hc0 x0 x1).1)
def out0_A_3 (c : Dev nD) (i : grid0.Coords) (arg2 : Memref sig .tc .vmem S512x2048 .f32) (harg2 : arg2.IsWhole) (arg3 : Memref sig .tc .vmem S6x512 .f32) (harg3 : arg3.IsWhole) (arg4 : Memref sig .tc .vmem S1x6x2048 .f32) (harg4 : arg4.IsWhole) (arg5 : Memref sig .tc .vmem S1x6x2048 .f32) (harg5 : arg5.IsWhole) (hc0 : cond0_0 i)
    (x0 : Vec F S512x2048 .f32) (x1 : Vec F S6x512 .f32) : Vec F S1x6x2048 .f32 :=
  VO0_3.read (Elt F) (VO0_3.writes (Elt F) VO0_3.junk (kernelRun0_A c i arg2 harg2 arg3 harg3 arg4 harg4 arg5 harg5 hc0 x0 x1).2.1)
/-- What the accumulating case leaves, over what the point before left. -/
def out0_B_2 (c : Dev nD) (i : grid0.Coords) (arg2 : Memref sig .tc .vmem S512x2048 .f32) (harg2 : arg2.IsWhole) (arg3 : Memref sig .tc .vmem S6x512 .f32) (harg3 : arg3.IsWhole) (arg4 : Memref sig .tc .vmem S1x6x2048 .f32) (harg4 : arg4.IsWhole) (arg5 : Memref sig .tc .vmem S1x6x2048 .f32) (harg5 : arg5.IsWhole) (hc0 : ¬cond0_0 i)
    (x0 : Vec F S512x2048 .f32) (x1 : Vec F S6x512 .f32) (xo2 xo3 : Vec F S1x6x2048 .f32) : Vec F S1x6x2048 .f32 :=
  VO0_2.read (Elt F) (VO0_2.writes (Elt F) VO0_2.junk (kernelRun0_B c i arg2 harg2 arg3 harg3 arg4 harg4 arg5 harg5 hc0 x0 x1 xo2 xo3).1)
def out0_B_3 (c : Dev nD) (i : grid0.Coords) (arg2 : Memref sig .tc .vmem S512x2048 .f32) (harg2 : arg2.IsWhole) (arg3 : Memref sig .tc .vmem S6x512 .f32) (harg3 : arg3.IsWhole) (arg4 : Memref sig .tc .vmem S1x6x2048 .f32) (harg4 : arg4.IsWhole) (arg5 : Memref sig .tc .vmem S1x6x2048 .f32) (harg5 : arg5.IsWhole) (hc0 : ¬cond0_0 i)
    (x0 : Vec F S512x2048 .f32) (x1 : Vec F S6x512 .f32) (xo2 xo3 : Vec F S1x6x2048 .f32) : Vec F S1x6x2048 .f32 :=
  VO0_3.read (Elt F) (VO0_3.writes (Elt F) VO0_3.junk (kernelRun0_B c i arg2 harg2 arg3 harg3 arg4 harg4 arg5 harg5 hc0 x0 x1 xo2 xo3).2.1)

/-! ## What the outputs hold after each point -/

/-- The two accumulators' staging buffers after the body at position `n`: the zeroing case at the positions
    divisible by 16, else the accumulating case over what position `n - 1` left. -/
def outsAt0 (c : Dev nD) : (n : ℕ) → n < cfg0.N → Vec F S1x6x2048 .f32 × Vec F S1x6x2048 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩),
      out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩))
  | n + 1, hn =>
    if h0 : (n + 1) % 16 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩),
        out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2,
        out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2)

/-- `outsAt0` at a point of the zeroing case. -/
theorem outsAt0_A (c : Dev nD) (t : Fin cfg0.N) (h0 : t.val % 16 = 0) :
    outsAt0 m c t.val t.isLt = (out0_A_2 c (grid0.coords t) (ms0_0 t) (hs0_0 t) (ms0_1 t) (hs0_1 t) (ms0_2 t) (hs0_2 t) (ms0_3 t) (hs0_3 t) ((hcond0_0 t).mpr h0) (iblk m c 0 t) (iblk m c 1 t),
      out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t)) := by
  obtain ⟨n, hn⟩ := t
  cases n with
  | zero => exact rfl
  | succ n => exact (dif_pos h0).trans rfl

/-- `outsAt0` at a point of the accumulating case: over what the point before left. -/
theorem outsAt0_B (c : Dev nD) (t : Fin cfg0.N) (h0 : ¬t.val % 16 = 0) :
    outsAt0 m c t.val t.isLt = (out0_B_2 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2,
      out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and the two
    outputs' at `outsAt0`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a point of the accumulating case an output's current staging buffer holds what the body left at the point
    before: the point is not the first, and the buffer was not written back between. -/
theorem before0_2_B (c : Dev nD) (t : Fin cfg0.N) (h0 : ¬t.val % 16 = 0) (d) :
    (dats m 0 c).before 2 t d = (outsAt0 m c (t.val - 1) (Nat.lt_of_le_of_lt (Nat.sub_le _ _) t.isLt)).1 := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (fun _ => rfl) (fun _ _ => rfl)]
  dsimp only [dats]
theorem before0_3_B (c : Dev nD) (t : Fin cfg0.N) (h0 : ¬t.val % 16 = 0) (d) :
    (dats m 0 c).before 3 t d = (outsAt0 m c (t.val - 1) (Nat.lt_of_le_of_lt (Nat.sub_le _ _) t.isLt)).2 := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (fun _ => rfl) (fun _ _ => rfl)]
  dsimp only [dats]

end Cert.KernelIdeal.Frm

end
-- ==== Proof.KernelIdeal.Frame.lean ====
/-
  The frame of `KernelIdeal`'s pallas_call and of @main around it: with the proof data of the sibling module the body
  obligation holds at every point (the closed form of the branch condition picks the case, and in the accumulating
  case each output's buffer holds what the point before left), so @main runs — the host operations, the region, the
  host operations after it — and the four argument arrays end unchanged.
-/
import proofs.«413106_j3882650436522_3_alg».proof.Proof.KernelIdeal.Data

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point: the inputs' memrefs hold their blocks; the closed form says which case the point is in;
    in the accumulating case each output's memref holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 32 := lt_of_lt_of_eq t.isLt (show cfg0.N = 32 from N_0)
  by_cases h0 : t.val % 16 = 0
  · have hcA : cond0_0 (grid0.coords t) := (hcond0_0 t).mpr h0
    rw [outsAt0_A m c t h0]
    (try dsimp only)
    unfold out0_A_2 out0_A_3
    iintro ⟨HΦ, Ho, ⟨%d0, H0⟩, ⟨%d1, H1⟩, ⟨%d2, H2⟩, ⟨%d3, H3⟩⟩
    iapply ((kernelRun0_A c (grid0.coords t) (ms0_0 t) (hs0_0 t) (ms0_1 t) (hs0_1 t) (ms0_2 t) (hs0_2 t) (ms0_3 t) (hs0_3 t) hcA (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro
      exact View.read_writes_of_cover (ms0_2 t).view e2 VO0_2 VO0_2.junk
        (kernelRun0_A c (grid0.coords t) (ms0_0 t) (hs0_0 t) (ms0_1 t) (hs0_1 t) (ms0_2 t) (hs0_2 t) (ms0_3 t) (hs0_3 t) hcA (iblk m c 0 t) (iblk m c 1 t)).1
        (cover0_A_2 c (grid0.coords t) (ms0_0 t) (hs0_0 t) (ms0_1 t) (hs0_1 t) (ms0_2 t) (hs0_2 t) (ms0_3 t) (hs0_3 t) hcA (iblk m c 0 t) (iblk m c 1 t))
    unfold owns; iexists _; isplitr
    swap; · iexact H3
    ipureintro
    exact View.read_writes_of_cover (ms0_3 t).view e3 VO0_3 VO0_3.junk
      (kernelRun0_A c (grid0.coords t) (ms0_0 t) (hs0_0 t) (ms0_1 t) (hs0_1 t) (ms0_2 t) (hs0_2 t) (ms0_3 t) (hs0_3 t) hcA (iblk m c 0 t) (iblk m c 1 t)).2.1
      (cover0_A_3 c (grid0.coords t) (ms0_0 t) (hs0_0 t) (ms0_1 t) (hs0_1 t) (ms0_2 t) (hs0_2 t) (ms0_3 t) (hs0_3 t) hcA (iblk m c 0 t) (iblk m c 1 t))
  · have hcB : ¬cond0_0 (grid0.coords t) := fun h => h0 ((hcond0_0 t).mp h)
    rw [outsAt0_B m c t h0]
    simp only [before0_2_B m c t h0, before0_3_B m c t h0]
    (try dsimp only)
    unfold out0_B_2 out0_B_3
    iintro ⟨HΦ, Ho, ⟨%d0, H0⟩, ⟨%d1, H1⟩, ⟨%d2, H2⟩, ⟨%d3, H3⟩⟩
    iapply ((kernelRun0_B c (grid0.coords t) (ms0_0 t) (hs0_0 t) (ms0_1 t) (hs0_1 t) (ms0_2 t) (hs0_2 t) (ms0_3 t) (hs0_3 t) hcB (iblk m c 0 t) (iblk m c 1 t)
      (outsAt0 m c (t.val - 1) (Nat.lt_of_le_of_lt (Nat.sub_le _ _) t.isLt)).1 (outsAt0 m c (t.val - 1) (Nat.lt_of_le_of_lt (Nat.sub_le _ _) t.isLt)).2).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro
      exact View.read_writes_of_cover (ms0_2 t).view e2 VO0_2 VO0_2.junk
        (kernelRun0_B c (grid0.coords t) (ms0_0 t) (hs0_0 t) (ms0_1 t) (hs0_1 t) (ms0_2 t) (hs0_2 t) (ms0_3 t) (hs0_3 t) hcB (iblk m c 0 t) (iblk m c 1 t)
          (outsAt0 m c (t.val - 1) (Nat.lt_of_le_of_lt (Nat.sub_le _ _) t.isLt)).1 (outsAt0 m c (t.val - 1) (Nat.lt_of_le_of_lt (Nat.sub_le _ _) t.isLt)).2).1
        (cover0_B_2 c (grid0.coords t) (ms0_0 t) (hs0_0 t) (ms0_1 t) (hs0_1 t) (ms0_2 t) (hs0_2 t) (ms0_3 t) (hs0_3 t) hcB (iblk m c 0 t) (iblk m c 1 t)
          (outsAt0 m c (t.val - 1) (Nat.lt_of_le_of_lt (Nat.sub_le _ _) t.isLt)).1 (outsAt0 m c (t.val - 1) (Nat.lt_of_le_of_lt (Nat.sub_le _ _) t.isLt)).2)
    unfold owns; iexists _; isplitr
    swap; · iexact H3
    ipureintro
    exact View.read_writes_of_cover (ms0_3 t).view e3 VO0_3 VO0_3.junk
      (kernelRun0_B c (grid0.coords t) (ms0_0 t) (hs0_0 t) (ms0_1 t) (hs0_1 t) (ms0_2 t) (hs0_2 t) (ms0_3 t) (hs0_3 t) hcB (iblk m c 0 t) (iblk m c 1 t)
        (outsAt0 m c (t.val - 1) (Nat.lt_of_le_of_lt (Nat.sub_le _ _) t.isLt)).1 (outsAt0 m c (t.val - 1) (Nat.lt_of_le_of_lt (Nat.sub_le _ _) t.isLt)).2).2.1
      (cover0_B_3 c (grid0.coords t) (ms0_0 t) (hs0_0 t) (ms0_1 t) (hs0_1 t) (ms0_2 t) (hs0_2 t) (ms0_3 t) (hs0_3 t) hcB (iblk m c 0 t) (iblk m c 1 t)
        (outsAt0 m c (t.val - 1) (Nat.lt_of_le_of_lt (Nat.sub_le _ _) t.isLt)).1 (outsAt0 m c (t.val - 1) (Nat.lt_of_le_of_lt (Nat.sub_le _ _) t.isLt)).2)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the region at what the
    library computes from the proof data and every other unscoped buffer as the operations after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: @main runs and its four argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Frm

end
-- ==== Proof.Spec.lean ====
/-
  What the two programs compute, stated once over literal shapes and free of either program's names.

  Both take N = 16384 rows x of C = 2048 features and a view id per row, and both end in the same loss: from the per-view
  counts, the per-view means and the per-view standard deviations (ddof 1), average the means and the deviations over
  the views with at least two rows, blend those averages into the two running centres, and sum the squared distances
  of every valid view's mean and deviation to the blended centres, divided by twice the number of valid views. That
  last stretch is `tailT`, one function of (counts, means, stds, centre mean, centre std).

  They differ in how they reach the sums and the variance. The reference scatters rows into their view's slot
  (`sumsR`), and accumulates squared distances to the row's own view mean, gathered back by view id (`stdR`). The
  kernel multiplies a one-hot matrix (views × rows, `ohT`) into x and into x·x block by block, one accumulator per
  core (`blockSum`: core a's sixteen blocks of 512 rows), adds the two cores' accumulators on the host (`sumsK`), and
  takes the variance in one pass, sum of squares minus count · mean², clamped at zero (`stdK`).
-/
import Idealize.ShloMosaic.PureOps
import Idealize.ShloMosaic.PureOps.Ideal
import Idealize.ShloMosaic.Lib.ValueIdx

noncomputable section

open scoped BigOperators

namespace Cert.Spec

open Idealize.ShloMosaic Idealize.ShloMosaic.ValueIdx

/-! ## Shapes and the shape facts the operations take -/

abbrev S16384x2048 : Shape := ⟨2, ![16384, 2048]⟩
abbrev S2048 : Shape := ⟨1, ![2048]⟩
abbrev S16384 : Shape := ⟨1, ![16384]⟩
abbrev S6x16384 : Shape := ⟨2, ![6, 16384]⟩
abbrev S1x16384 : Shape := ⟨2, ![1, 16384]⟩
abbrev S2x6x2048 : Shape := ⟨3, ![2, 6, 2048]⟩
abbrev S6x2048 : Shape := ⟨2, ![6, 2048]⟩
abbrev S_ : Shape := ⟨0, ![]⟩
abbrev S6 : Shape := ⟨1, ![6]⟩
abbrev S16384x1 : Shape := ⟨2, ![16384, 1]⟩
abbrev S6x1 : Shape := ⟨2, ![6, 1]⟩
abbrev S1x2048 : Shape := ⟨2, ![1, 2048]⟩

theorem bcast_S_S6 : S_.BroadcastsInDim S6 (![] : Fin 0 → Fin S6.rank) := by decide
theorem bcast_S_S16384 : S_.BroadcastsInDim S16384 (![] : Fin 0 → Fin S16384.rank) := by decide
theorem bcast_S16384_S16384x1_0 : S16384.BroadcastsInDim S16384x1 (![0] : Fin 1 → Fin S16384x1.rank) := by decide
theorem bcast_S6_S6x1_0 : S6.BroadcastsInDim S6x1 (![0] : Fin 1 → Fin S6x1.rank) := by decide
theorem bcast_S6x1_S6x2048_0_1 : S6x1.BroadcastsInDim S6x2048 (![0, 1] : Fin 2 → Fin S6x2048.rank) := by decide
theorem bcast_S_S6x2048 : S_.BroadcastsInDim S6x2048 (![] : Fin 0 → Fin S6x2048.rank) := by decide
theorem bcast_S_S2048 : S_.BroadcastsInDim S2048 (![] : Fin 0 → Fin S2048.rank) := by decide
theorem bcast_S2048_S1x2048_1 : S2048.BroadcastsInDim S1x2048 (![1] : Fin 1 → Fin S1x2048.rank) := by decide
theorem bcast_S1x2048_S6x2048_0_1 : S1x2048.BroadcastsInDim S6x2048 (![0, 1] : Fin 2 → Fin S6x2048.rank) := by decide
theorem reducesTo_S2x6x2048_S6x2048_d0 : S2x6x2048.ReducesTo [0] S6x2048 := by decide
theorem reducesTo_S6_S_d0 : S6.ReducesTo [0] S_ := by decide
theorem reducesTo_S6x2048_S2048_d0 : S6x2048.ReducesTo [0] S2048 := by decide
theorem reducesTo_S6x2048_S6_d1 : S6x2048.ReducesTo [1] S6 := by decide
theorem h_S_ : 0 < S_.numel := by decide
theorem natLt_1_32 : 1 < 32 := by decide
theorem scatter_S6_S16384x1_S16384_n_0_0_1_wf : ScatterDims.WF S6 S16384x1 S16384 [] [0] [0] 1 := by decide
theorem scatter_S6x2048_S16384x1_S16384x2048_1_0_0_1_wf : ScatterDims.WF S6x2048 S16384x1 S16384x2048 [1] [0] [0] 1 := by decide
theorem gather_S6x2048_S16384x1_S16384x2048_1_0_n_n_0_1_12048_wf : GatherDims.WF S6x2048 S16384x1 S16384x2048 [1] [0] [] [0] [] 1 ![1, 2048] := by decide
theorem bcast_S16384_S1x16384_1 : S16384.BroadcastsInDim S1x16384 (![1] : Fin 1 → Fin S1x16384.rank) := by decide
theorem bcast_S1x16384_S6x16384_0_1 : S1x16384.BroadcastsInDim S6x16384 (![0, 1] : Fin 2 → Fin S6x16384.rank) := by decide

/-- `x.at[views].add(ones)`: one scatter index per row, no window. -/
def scatterRows1 : ScatterDims S6 S16384x1 S16384 where
  updateWindowDims := []
  insertedWindowDims := [0]
  scatterDimsToOperandDims := [0]
  indexVectorDim := 1
  wf := scatter_S6_S16384x1_S16384_n_0_0_1_wf
/-- `x.at[views].add(rows)`: one scatter index per row, the row its window. -/
def scatterRows2 : ScatterDims S6x2048 S16384x1 S16384x2048 where
  updateWindowDims := [1]
  insertedWindowDims := [0]
  scatterDimsToOperandDims := [0]
  indexVectorDim := 1
  wf := scatter_S6x2048_S16384x1_S16384x2048_1_0_0_1_wf
/-- `means[views]`: one row of the table per start index. -/
def gatherRows : GatherDims S6x2048 S16384x1 S16384x2048 where
  offsetDims := [1]
  collapsedSliceDims := [0]
  operandBatchingDims := []
  startIndicesBatchingDims := []
  startIndexMap := [0]
  indexVectorDim := 1
  sliceSizes := ![1, 2048]
  wf := gather_S6x2048_S16384x1_S16384x2048_1_0_n_n_0_1_12048_wf

variable {F : FTy → Type} [FloatOps F]

/-! ## The pieces both programs share -/

/-- A per-view vector spread over the features: [6] → [6, 1] → [6, 2048]. -/
def colB {α : Type} (v : S6.Idx → α) : S6x2048.Idx → α :=
  broadcastInDim S6x2048 ![0, 1] bcast_S6x1_S6x2048_0_1 (broadcastInDim S6x1 ![0] bcast_S6_S6x1_0 v)
/-- A per-feature vector spread over the views: [2048] → [1, 2048] → [6, 2048]. -/
def rowB {α : Type} (v : S2048.Idx → α) : S6x2048.Idx → α :=
  broadcastInDim S6x2048 ![0, 1] bcast_S1x2048_S6x2048_0_1 (broadcastInDim S1x2048 ![1] bcast_S2048_S1x2048_1 v)
/-- The view ids as scatter indices: [16384] → [16384, 1]. -/
def idxCol (x3 : IVec S16384 32) : IVec S16384x1 32 := broadcastInDim S16384x1 ![0] bcast_S16384_S16384x1_0 x3
def ones6 : FVec F S6 .f32 := broadcastInDim S6 ![] bcast_S_S6 (constant (F := F) S_ .f32 0x3F800000#32)
def zeros6x2048 : FVec F S6x2048 .f32 := broadcastInDim S6x2048 ![] bcast_S_S6x2048 (constant (F := F) S_ .f32 0x00000000#32)

/-- Rows per view: a one scattered to each row's view. -/
def cntT (x3 : IVec S16384 32) : FVec F S6 .f32 :=
  Host.scatterAdd scatterRows1 (broadcastInDim S6 ![] bcast_S_S6 (constant (F := F) S_ .f32 0x00000000#32)) (idxCol x3)
    (broadcastInDim S16384 ![] bcast_S_S16384 (constant (F := F) S_ .f32 0x3F800000#32))
/-- Per-view means from per-view sums: divided by max(count, 1). -/
def meanT (S : FVec F S6x2048 .f32) (cnt : FVec F S6 .f32) : FVec F S6x2048 .f32 :=
  Host.divf S (colB (maximumf cnt (ones6 (F := F))))
/-- The unbiased variance's divisor: max(count − 1, 1). -/
def denomT (cnt : FVec F S6 .f32) : FVec F S6 .f32 := maximumf (subf cnt (ones6 (F := F))) (ones6 (F := F))

/-! ## The reference's sums and deviations -/

def sumsR (x0 : FVec F S16384x2048 .f32) (x3 : IVec S16384 32) : FVec F S6x2048 .f32 :=
  Host.scatterAdd scatterRows2 (zeros6x2048 (F := F)) (idxCol x3) x0
/-- A negative view id counted from the end, as jnp indexing does before it gathers. -/
def normIdx (x3 : IVec S16384 32) : IVec S16384 32 :=
  select (cmpi .slt x3 (broadcastInDim S16384 ![] bcast_S_S16384 (constantI S_ 32 0#32)))
    (addi x3 (broadcastInDim S16384 ![] bcast_S_S16384 (constantI S_ 32 6#32))) x3
/-- Squared distances of every row to its own view's mean, scattered per view, over max(count − 1, 1), rooted. -/
def stdR (x0 : FVec F S16384x2048 .f32) (x3 : IVec S16384 32) (mean : FVec F S6x2048 .f32) (cnt : FVec F S6 .f32) : FVec F S6x2048 .f32 :=
  Host.sqrt (Host.divf
    (Host.scatterAdd scatterRows2 (zeros6x2048 (F := F)) (idxCol x3)
      (mulf (subf x0 (Host.gather gatherRows mean (idxCol (normIdx x3)))) (subf x0 (Host.gather gatherRows mean (idxCol (normIdx x3))))))
    (colB (denomT cnt)))

/-! ## The kernel's sums and deviations -/

/-- The one-hot operand, views × rows: 1 where the row's view id is the view. -/
def ohT (x3 : IVec S16384 32) : FVec F S6x16384 .f32 :=
  uitofp (F := F) .f32 (cmpi .eq (iotaInDim S6x16384 32 0)
    (broadcastInDim S6x16384 ![0, 1] bcast_S1x16384_S6x16384_0_1 (broadcastInDim S1x16384 ![1] bcast_S16384_S1x16384_1 x3)))
/-- The two cores' accumulators added. -/
def sumsK (A : FVec F S2x6x2048 .f32) : FVec F S6x2048 .f32 :=
  Host.reduceAdd A (constant (F := F) S_ .f32 0x00000000#32) reducesTo_S2x6x2048_S6x2048_d0 h_S_
/-- One-pass variance: (sum of squares − count · mean · mean) clamped at zero, over max(count − 1, 1), rooted. -/
def stdK (A3 : FVec F S2x6x2048 .f32) (cnt : FVec F S6 .f32) (mean : FVec F S6x2048 .f32) : FVec F S6x2048 .f32 :=
  Host.sqrt (Host.divf
    (maximumf (subf (sumsK A3) (mulf (mulf (colB cnt) mean) mean)) (zeros6x2048 (F := F)))
    (colB (denomT cnt)))

/-- Row `512 · (16 a + s) + k` of the batch: row `k` of block `s` of core `a`'s half. -/
def rowOf (a : Fin 2) (s : Fin 16) (k : Fin 512) : Fin 16384 := ⟨512 * (16 * a.val + s.val) + k.val, by omega⟩
/-- What core `a`'s accumulator holds after its sixteen points, at the extended reals: over its blocks `s` and
    their rows `k`, the one-hot entry times the operand's entry. -/
def blockSum (oh : FVec Ideal S6x16384 .f32) (y : FVec Ideal S16384x2048 .f32) : FVec Ideal S2x6x2048 .f32 :=
  fun j => ∑ s : Fin 16, ∑ k : Fin 512, oh (ix2 (j 1) (rowOf (j 0) s k)) * y (ix2 (rowOf (j 0) s k) (j 2))

/-! ## The shared last stretch -/

/-- From counts, means and deviations to the loss. -/
def tailT (cnt : FVec F S6 .f32) (mean std : FVec F S6x2048 .f32) (a1 a2 : FVec F S2048 .f32) : FVec F S_ .f32 :=
  let valid : IVec S6 1 := cmpf (F := F) .ogt cnt (broadcastInDim S6 ![] bcast_S_S6 (constant (F := F) S_ .f32 0x3FC00000#32))
  let nvalid : FVec F S_ .f32 := sitofp (F := F) .f32 (Host.reduce IntOp.addi (extui 32 valid natLt_1_32) (constantI S_ 32 0#32) reducesTo_S6_S_d0 h_S_)
  let zeroB : FVec F S6x2048 .f32 := broadcastInDim S6x2048 ![] bcast_S_S6x2048 (id (constant (F := F) S_ .f32 0x00000000#32))
  let newMean : FVec F S2048 .f32 := Host.divf (Host.reduceAdd (select (colB valid) mean zeroB) (constant (F := F) S_ .f32 0x00000000#32) reducesTo_S6x2048_S2048_d0 h_S_)
    (broadcastInDim S2048 ![] bcast_S_S2048 nvalid)
  let newStd : FVec F S2048 .f32 := Host.divf (Host.reduceAdd (select (colB valid) std zeroB) (constant (F := F) S_ .f32 0x00000000#32) reducesTo_S6x2048_S2048_d0 h_S_)
    (broadcastInDim S2048 ![] bcast_S_S2048 nvalid)
  let cm : FVec F S2048 .f32 := addf (mulf a1 (broadcastInDim S2048 ![] bcast_S_S2048 (constant (F := F) S_ .f32 0xBF236E2F#32)))
    (mulf newMean (broadcastInDim S2048 ![] bcast_S_S2048 (constant (F := F) S_ .f32 0x3FD1B717#32)))
  let cs : FVec F S2048 .f32 := addf (mulf a2 (broadcastInDim S2048 ![] bcast_S_S2048 (constant (F := F) S_ .f32 0xBF236E2F#32)))
    (mulf newStd (broadcastInDim S2048 ![] bcast_S_S2048 (constant (F := F) S_ .f32 0x3FD1B717#32)))
  let termMean : FVec F S6 .f32 := Host.reduceAdd (mulf (subf mean (rowB cm)) (subf mean (rowB cm))) (constant (F := F) S_ .f32 0x00000000#32) reducesTo_S6x2048_S6_d1 h_S_
  let termStd : FVec F S6 .f32 := Host.reduceAdd (mulf (subf std (rowB cs)) (subf std (rowB cs))) (constant (F := F) S_ .f32 0x00000000#32) reducesTo_S6x2048_S6_d1 h_S_
  let zero6 : FVec F S6 .f32 := broadcastInDim S6 ![] bcast_S_S6 (id (constant (F := F) S_ .f32 0x00000000#32))
  let total : FVec F S_ .f32 := Host.reduceAdd (select valid (addf termMean termStd) zero6) (constant (F := F) S_ .f32 0x00000000#32) reducesTo_S6_S_d0 h_S_
  Host.divf total (mulf (constant (F := F) S_ .f32 0x40000000#32) nvalid)

/-- The reference's result as one function of its four arguments. -/
def refT (x0 : FVec F S16384x2048 .f32) (a1 a2 : FVec F S2048 .f32) (x3 : IVec S16384 32) : FVec F S_ .f32 :=
  tailT (cntT x3) (meanT (sumsR x0 x3) (cntT x3)) (stdR x0 x3 (meanT (sumsR x0 x3) (cntT x3)) (cntT x3)) a1 a2
/-- The kernel's result as one function of the two accumulator arrays and the small arguments. -/
def kerT (A2 A3 : FVec F S2x6x2048 .f32) (a1 a2 : FVec F S2048 .f32) (x3 : IVec S16384 32) : FVec F S_ .f32 :=
  tailT (cntT x3) (meanT (sumsK A2) (cntT x3)) (stdK A3 (cntT x3) (meanT (sumsK A2) (cntT x3))) a1 a2

end Cert.Spec

end
-- ==== Proof.KernelIdeal.Tail.lean ====
/-
  What the host operations after the region leave in the result buffer: `Spec.kerT` of the two accumulator arrays as
  the region leaves them and of the three small arguments. The ninety-seven operations are read off in order; the two
  accumulators are the region's arrays, every other buffer they read is one they wrote themselves or an argument
  that nothing before them writes. And what the five operations before the region leave in the one-hot operand's
  buffer: `Spec.ohT` of the view ids.
-/
import Idealize.ShloMosaic.Lib.StableHlo.Run
import proofs.«413106_j3882650436522_3_alg».proof.Proof.KernelIdeal.Kit
import proofs.«413106_j3882650436522_3_alg».proof.Proof.Spec

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.StableHlo

/-- The one-hot operand as the region finds it. -/
theorem V_main_v4 (c : Dev nD) :
    (V m c main_v4 : S6x16384.Idx → Elt F .f32) = Cert.Spec.ohT (F := F) (m ((c : Thread nD τ).loc main_arg3)) := by
  dsimp only [V, V0]
  simp only [hostOps0, List.flatten_cons, List.flatten_nil, List.append_nil, List.cons_append, List.nil_append]
  after_results
  rfl

set_option maxRecDepth 65536 in
set_option maxHeartbeats 8000000 in
/-- The result buffer after the tail. -/
theorem tail_value (dats : (p : Fin 1) → (c : Dev nD) → Dat τ (Elt F) Unit ℕ (UR sig nD τ) ℕ (cfgs p) c) (c : Dev nD) :
    (Pipeline.afterTail₀ cfgs dats 0 (V0 m) tailOps c main_v71 : S_.Idx → Elt F .f32)
      = Cert.Spec.kerT (F := F) ((dats 0 c).arrAt 2 cfg0.N) ((dats 0 c).arrAt 3 cfg0.N)
          (m ((c : Thread nD τ).loc main_arg1)) (m ((c : Thread nD τ).loc main_arg2)) (m ((c : Thread nD τ).loc main_arg3)) := by
  unfold Pipeline.afterTail₀
  have h2 := Pipeline.withArrays_arr spec0 launch0.win.arr_inj c (V0 m c) (fun w => (dats 0 c).arrAt w (cfgs 0).N) 2
  have h3 := Pipeline.withArrays_arr spec0 launch0.win.arr_inj c (V0 m c) (fun w => (dats 0 c).arrAt w (cfgs 0).N) 3
  have ha1 := (Pipeline.withArrays_of_ne spec0 c (V0 m c) (fun w => (dats 0 c).arrAt w (cfgs 0).N) main_arg1 (by decide)).trans (V_main_arg1 m c)
  have ha2 := (Pipeline.withArrays_of_ne spec0 c (V0 m c) (fun w => (dats 0 c).arrAt w (cfgs 0).N) main_arg2 (by decide)).trans (V_main_arg2 m c)
  have ha3 := (Pipeline.withArrays_of_ne spec0 c (V0 m c) (fun w => (dats 0 c).arrAt w (cfgs 0).N) main_arg3 (by decide)).trans (V_main_arg3 m c)
  generalize Pipeline.withArrays (cfgs 0).spec c (V0 m c) (fun w => (dats 0 c).arrAt w (cfgs 0).N) = W at h2 h3 ha1 ha2 ha3 ⊢
  simp only [tailOps, hostOps1, hostOps1_1, hostOps1_2, hostOps1_3, hostOps1_4, hostOps1_5, hostOps1_6,
    List.flatten_cons, List.flatten_nil, List.append_nil, List.cons_append, List.nil_append]
  after_results_simp
  have h2' : W (Proc.devRef .tc main_v5_0) = (dats 0 c).arrAt 2 (cfgs 0).N := h2
  have h3' : W (Proc.devRef .tc main_v5_1) = (dats 0 c).arrAt 3 (cfgs 0).N := h3
  rw [h2', h3', ha1, ha2, ha3]
  rfl

end Cert.KernelIdeal.Frm

end
-- ==== Proof.KernelIdeal.Pieces.lean ====
/-
  The kernel body's arithmetic, read where the proof data needs it. What a case's stores leave in an output's staging
  buffer is ONE payload of the point's two input blocks and of what the buffer held: in the zeroing case the payload
  over the zero block, in the accumulating case the payload over what the point before left. At the extended reals a
  payload's entry (view v, feature col) is the old entry plus the sum over the block's 512 rows k of the one-hot
  block's entry (v, k) times the row block's entry (k, col) — squared for the second accumulator. And an input
  window's block at grid point t is rows 512·t … 512·t + 511 of its array.
-/
import Idealize.ShloMosaic.Lib.Pipeline.Value
import Idealize.ShloMosaic.Lib.ValueIdx
import Idealize.ShloMosaic.Lib.ValueLayout
import Idealize.ShloMosaic.PureOps.Ideal.Laws
import proofs.«413106_j3882650436522_3_alg».proof.Proof.KernelIdeal.Data
import proofs.«413106_j3882650436522_3_alg».proof.Proof.Spec

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx
open scoped BigOperators

namespace Pieces

/-- The offset of a whole block is zero on every axis. -/
theorem hz2 : (![0, 0] : Fin 2 → Nat) = fun _ => 0 := funext fun a => by fin_cases a <;> rfl
theorem hz3 : (![0, 0, 0] : Fin 3 → Nat) = fun _ => 0 := funext fun a => by fin_cases a <;> rfl

/-! The product's operand indices, axis by axis: the left operand reads (the result's row, the contraction
    position), the right operand (the contraction position, the result's column). -/

theorem dot_lhs_0 (j : S6x2048.Idx) (k : dot_S6x512_S512x2048_S6x2048_1_0_0_1_n_n.contr.Idx) :
    (dot_S6x512_S512x2048_S6x2048_1_0_0_1_n_n.lhsIdx j k 0).val = (j 0).val := by
  unfold DotDims.lhsIdx
  rw [dif_neg (show ¬(0 : Fin S6x512.rank) ∈ dot_S6x512_S512x2048_S6x2048_1_0_0_1_n_n.lhsBatch by decide),
    dif_pos (show (0 : Fin S6x512.rank) ∈ dot_S6x512_S512x2048_S6x2048_1_0_0_1_n_n.lhsNonContracting by decide)]
  rfl
theorem dot_lhs_1 (j : S6x2048.Idx) (k : dot_S6x512_S512x2048_S6x2048_1_0_0_1_n_n.contr.Idx) :
    (dot_S6x512_S512x2048_S6x2048_1_0_0_1_n_n.lhsIdx j k 1).val = (k ⟨0, by decide⟩).val :=
  dot_S6x512_S512x2048_S6x2048_1_0_0_1_n_n.lhsIdx_val_of_single (cl := 1) rfl j k
theorem dot_rhs_0 (j : S6x2048.Idx) (k : dot_S6x512_S512x2048_S6x2048_1_0_0_1_n_n.contr.Idx) :
    (dot_S6x512_S512x2048_S6x2048_1_0_0_1_n_n.rhsIdx j k 0).val = (k ⟨0, by decide⟩).val :=
  dot_S6x512_S512x2048_S6x2048_1_0_0_1_n_n.rhsIdx_val_of_single (cr := 0) rfl j k
theorem dot_rhs_1 (j : S6x2048.Idx) (k : dot_S6x512_S512x2048_S6x2048_1_0_0_1_n_n.contr.Idx) :
    (dot_S6x512_S512x2048_S6x2048_1_0_0_1_n_n.rhsIdx j k 1).val = (j 1).val := by
  unfold DotDims.rhsIdx
  rw [dif_neg (show ¬(1 : Fin S512x2048.rank) ∈ dot_S6x512_S512x2048_S6x2048_1_0_0_1_n_n.rhsBatch by decide),
    dif_pos (show (1 : Fin S512x2048.rank) ∈ dot_S6x512_S512x2048_S6x2048_1_0_0_1_n_n.rhsNonContracting by decide)]
  rfl

/-- The product into the zero accumulator, at (v, col): the sum over the 512 contracted rows. -/
theorem matmul_at (A : Vec Ideal S6x512 .f32) (B : Vec Ideal S512x2048 .f32) (v : Fin 6) (col : Fin 2048) :
    matmul (φ₁ := .f32) (φ₂ := .f32) dot_S6x512_S512x2048_S6x2048_1_0_0_1_n_n none A B (constant (F := Ideal) S6x2048 .f32 0x00000000#32) (ix2 v col)
      = ∑ k : Fin 512, A (ix2 v k) * B (ix2 k col) := by
  show FloatOps.matmul (φ₁ := .f32) (φ₂ := .f32) dot_S6x512_S512x2048_S6x2048_1_0_0_1_n_n none A B (constant (F := Ideal) S6x2048 .f32 0x00000000#32) (ix2 v col) = _
  rw [Ideal.matmul_constant_zero_apply, ← Equiv.sum_comp (contrEquiv1 dot_S6x512_S512x2048_S6x2048_1_0_0_1_n_n 512 rfl rfl).symm]
  refine Finset.sum_congr rfl fun k _ => ?_
  have ck := contrEquiv1_symm_val dot_S6x512_S512x2048_S6x2048_1_0_0_1_n_n 512 rfl rfl k
  have l : dot_S6x512_S512x2048_S6x2048_1_0_0_1_n_n.lhsIdx (ix2 v col) ((contrEquiv1 dot_S6x512_S512x2048_S6x2048_1_0_0_1_n_n 512 rfl rfl).symm k) = ix2 v k := by
    funext ax; apply Fin.ext
    match ax with
    | ⟨0, _⟩ => exact dot_lhs_0 _ _
    | ⟨1, _⟩ => exact (dot_lhs_1 _ _).trans ck
  have r : dot_S6x512_S512x2048_S6x2048_1_0_0_1_n_n.rhsIdx (ix2 v col) ((contrEquiv1 dot_S6x512_S512x2048_S6x2048_1_0_0_1_n_n 512 rfl rfl).symm k) = ix2 k col := by
    funext ax; apply Fin.ext
    match ax with
    | ⟨0, _⟩ => exact (dot_rhs_0 _ _).trans ck
    | ⟨1, _⟩ => exact dot_rhs_1 _ _
  rw [l, r]

/-- A [6,2048] vector cast to [1,6,2048], at (0, v, col), is the vector at (v, col). -/
theorem addUnit_at (w : Vec Ideal S6x2048 .f32) (v : Fin 6) (col : Fin 2048) :
    shapeCast S1x6x2048 w shapeCasts_S6x2048_S1x6x2048 (ix3 (0 : Fin 1) v col) = w (ix2 v col) :=
  (shapeCast_addUnit_apply ![6, 2048] w shapeCasts_S6x2048_S1x6x2048 (ix3 (0 : Fin 1) v col)).trans
    (congrArg w (funext fun a => match a with | ⟨0, _⟩ => rfl | ⟨1, _⟩ => rfl))

/-- The block index of the row window at point t is (t, 0); of the one-hot window, (0, t). -/
theorem idx_win0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_win1 : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)

end Pieces

/-! ## What each case leaves is a payload -/

theorem out0_A_2_eq (c : Dev nD) (i : grid0.Coords) (arg2 : Memref sig .tc .vmem S512x2048 .f32) (harg2 : arg2.IsWhole) (arg3 : Memref sig .tc .vmem S6x512 .f32) (harg3 : arg3.IsWhole) (arg4 : Memref sig .tc .vmem S1x6x2048 .f32) (harg4 : arg4.IsWhole) (arg5 : Memref sig .tc .vmem S1x6x2048 .f32) (harg5 : arg5.IsWhole) (hc0 : cond0_0 i) (x0 : Vec F S512x2048 .f32) (x1 : Vec F S6x512 .f32) :
    out0_A_2 (F := F) c i arg2 harg2 arg3 harg3 arg4 harg4 arg5 harg5 hc0 x0 x1 = k0_pay4 x0 x1 (k0_pay1 (F := F)) := by
  unfold out0_A_2
  rw [View.read_writes_junk_eq_canon]
  unfold kernelRun0_A
  dsimp only
  sl_unfold_words
  rw [View.canon_cons_unit_zero (S := S1x6x2048) Pieces.hz3, View.readCov_unit_zero (S := S1x6x2048) _ Pieces.hz3]
  simp only [View.readAt_eq_ld, harg2.read_unread, harg3.read_unread, View.ld_unit_zero (S := S512x2048) Pieces.hz2,
    View.ld_unit_zero (S := S6x512) Pieces.hz2]
theorem out0_A_3_eq (c : Dev nD) (i : grid0.Coords) (arg2 : Memref sig .tc .vmem S512x2048 .f32) (harg2 : arg2.IsWhole) (arg3 : Memref sig .tc .vmem S6x512 .f32) (harg3 : arg3.IsWhole) (arg4 : Memref sig .tc .vmem S1x6x2048 .f32) (harg4 : arg4.IsWhole) (arg5 : Memref sig .tc .vmem S1x6x2048 .f32) (harg5 : arg5.IsWhole) (hc0 : cond0_0 i) (x0 : Vec F S512x2048 .f32) (x1 : Vec F S6x512 .f32) :
    out0_A_3 (F := F) c i arg2 harg2 arg3 harg3 arg4 harg4 arg5 harg5 hc0 x0 x1 = k0_pay5 x0 x1 (k0_pay2 (F := F)) := by
  unfold out0_A_3
  rw [View.read_writes_junk_eq_canon]
  unfold kernelRun0_A
  dsimp only
  sl_unfold_words
  rw [View.canon_cons_unit_zero (S := S1x6x2048) Pieces.hz3, View.readCov_unit_zero (S := S1x6x2048) _ Pieces.hz3]
  simp only [View.readAt_eq_ld, harg2.read_unread, harg3.read_unread, View.ld_unit_zero (S := S512x2048) Pieces.hz2,
    View.ld_unit_zero (S := S6x512) Pieces.hz2]
theorem out0_B_2_eq (c : Dev nD) (i : grid0.Coords) (arg2 : Memref sig .tc .vmem S512x2048 .f32) (harg2 : arg2.IsWhole) (arg3 : Memref sig .tc .vmem S6x512 .f32) (harg3 : arg3.IsWhole) (arg4 : Memref sig .tc .vmem S1x6x2048 .f32) (harg4 : arg4.IsWhole) (arg5 : Memref sig .tc .vmem S1x6x2048 .f32) (harg5 : arg5.IsWhole) (hc0 : ¬cond0_0 i) (x0 : Vec F S512x2048 .f32) (x1 : Vec F S6x512 .f32) (xo2 xo3 : Vec F S1x6x2048 .f32) :
    out0_B_2 (F := F) c i arg2 harg2 arg3 harg3 arg4 harg4 arg5 harg5 hc0 x0 x1 xo2 xo3 = k0_pay4 x0 x1 xo2 := by
  unfold out0_B_2
  rw [View.read_writes_junk_eq_canon]
  unfold kernelRun0_B
  dsimp only
  sl_unfold_words
  rw [View.canon_unit_zero (S := S1x6x2048) Pieces.hz3]
  simp only [View.readAt_eq_ld, harg2.read_unread, harg3.read_unread, harg4.read_unread, harg5.read_unread,
    View.ld_unit_zero (S := S512x2048) Pieces.hz2, View.ld_unit_zero (S := S6x512) Pieces.hz2, View.ld_unit_zero (S := S1x6x2048) Pieces.hz3]
theorem out0_B_3_eq (c : Dev nD) (i : grid0.Coords) (arg2 : Memref sig .tc .vmem S512x2048 .f32) (harg2 : arg2.IsWhole) (arg3 : Memref sig .tc .vmem S6x512 .f32) (harg3 : arg3.IsWhole) (arg4 : Memref sig .tc .vmem S1x6x2048 .f32) (harg4 : arg4.IsWhole) (arg5 : Memref sig .tc .vmem S1x6x2048 .f32) (harg5 : arg5.IsWhole) (hc0 : ¬cond0_0 i) (x0 : Vec F S512x2048 .f32) (x1 : Vec F S6x512 .f32) (xo2 xo3 : Vec F S1x6x2048 .f32) :
    out0_B_3 (F := F) c i arg2 harg2 arg3 harg3 arg4 harg4 arg5 harg5 hc0 x0 x1 xo2 xo3 = k0_pay5 x0 x1 xo3 := by
  unfold out0_B_3
  rw [View.read_writes_junk_eq_canon]
  unfold kernelRun0_B
  dsimp only
  sl_unfold_words
  rw [View.canon_unit_zero (S := S1x6x2048) Pieces.hz3]
  simp only [View.readAt_eq_ld, harg2.read_unread, harg3.read_unread, harg4.read_unread, harg5.read_unread,
    View.ld_unit_zero (S := S512x2048) Pieces.hz2, View.ld_unit_zero (S := S6x512) Pieces.hz2, View.ld_unit_zero (S := S1x6x2048) Pieces.hz3]

/-! ## The payloads at an index, at the extended reals -/

theorem pay1_apply (j : S1x6x2048.Idx) : k0_pay1 (F := Ideal) j = 0 := by
  unfold k0_pay1
  exact Ideal.ofBits_zero_f32
theorem pay2_apply (j : S1x6x2048.Idx) : k0_pay2 (F := Ideal) j = 0 := by
  unfold k0_pay2
  exact Ideal.ofBits_zero_f32
theorem pay4_apply (x0 : Vec Ideal S512x2048 .f32) (x1 : Vec Ideal S6x512 .f32) (acc : Vec Ideal S1x6x2048 .f32) (v : Fin 6) (col : Fin 2048) :
    k0_pay4 x0 x1 acc (ix3 (0 : Fin 1) v col) = acc (ix3 (0 : Fin 1) v col) + ∑ k : Fin 512, x1 (ix2 v k) * x0 (ix2 k col) := by
  unfold k0_pay4 k0_pay3
  dsimp only
  refine (addf_apply _ _ _).trans ?_
  refine congrArg₂ (· + ·) ?_ ?_
  · exact congrFun (shapeCast_self acc _) _
  · refine (Pieces.addUnit_at _ v col).trans ?_
    refine (congrArg (fun A => matmul (φ₁ := .f32) (φ₂ := .f32) dot_S6x512_S512x2048_S6x2048_1_0_0_1_n_n none A x0 (constant (F := Ideal) S6x2048 .f32 0x00000000#32) (ix2 v col))
      (shapeCast_self x1 shapeCasts_S6x512_S6x512)).trans ?_
    exact Pieces.matmul_at x1 x0 v col
theorem pay5_apply (x0 : Vec Ideal S512x2048 .f32) (x1 : Vec Ideal S6x512 .f32) (acc : Vec Ideal S1x6x2048 .f32) (v : Fin 6) (col : Fin 2048) :
    k0_pay5 x0 x1 acc (ix3 (0 : Fin 1) v col) = acc (ix3 (0 : Fin 1) v col) + ∑ k : Fin 512, x1 (ix2 v k) * (x0 (ix2 k col) * x0 (ix2 k col)) := by
  unfold k0_pay5 k0_pay3
  dsimp only
  refine (addf_apply _ _ _).trans ?_
  refine congrArg₂ (· + ·) ?_ ?_
  · exact congrFun (shapeCast_self acc _) _
  · refine (Pieces.addUnit_at _ v col).trans ?_
    refine (congrArg (fun A => matmul (φ₁ := .f32) (φ₂ := .f32) dot_S6x512_S512x2048_S6x2048_1_0_0_1_n_n none A (mulf x0 x0) (constant (F := Ideal) S6x2048 .f32 0x00000000#32) (ix2 v col))
      (shapeCast_self x1 shapeCasts_S6x512_S6x512)).trans ?_
    exact Pieces.matmul_at x1 (mulf x0 x0 : FVec Ideal S512x2048 .f32) v col

/-! ## The input blocks as rows of their arrays -/

/-- The row block and the one-hot block at a point, and the two arrays, by their literal types. -/
abbrev xblk (c : Dev nD) (t : Fin cfg0.N) : Vec F S512x2048 .f32 := iblk m c 0 t
abbrev oblk (c : Dev nD) (t : Fin cfg0.N) : Vec F S6x512 .f32 := iblk m c 1 t
abbrev xarr (c : Dev nD) : Vec F S16384x2048 .f32 := V m c main_arg0
abbrev oarr (c : Dev nD) : Vec F S6x16384 .f32 := V m c main_v4

/-- The index maps of the two input windows, decided over the grid: block t of the rows, block t of the one-hot columns. -/
theorem idx_in : ∀ t : Fin cfg0.N, win0_0.index t (0 : Fin 2) = t.val ∧ win0_0.index t (1 : Fin 2) = 0
    ∧ win0_1.index t (0 : Fin 2) = 0 ∧ win0_1.index t (1 : Fin 2) = t.val :=
  (by decide +kernel : ∀ t : Fin grid0.N, _)

theorem xblk_apply (c : Dev nD) (t : Fin cfg0.N) (k : Fin 512) (col : Fin 2048) (h : 512 * t.val + k.val < 16384) :
    xblk m c t (ix2 k col) = xarr m c (ix2 (⟨512 * t.val + k.val, h⟩ : Fin 16384) col) := by
  unfold xblk xarr iblk
  rw [View.read_apply]
  show V m c main_arg0 _ = V m c main_arg0 _
  congr 1
  funext a
  apply Fin.ext
  match a with
  | ⟨0, _⟩ => show win0_0.index t 0 * 512 + 1 * k.val = 512 * t.val + k.val; rw [(Pieces.idx_win0 t).1]; omega
  | ⟨1, _⟩ => show win0_0.index t 1 * 2048 + 1 * col.val = col.val; rw [(Pieces.idx_win0 t).2]; omega
theorem oblk_apply (c : Dev nD) (t : Fin cfg0.N) (v : Fin 6) (k : Fin 512) (h : 512 * t.val + k.val < 16384) :
    oblk m c t (ix2 v k) = oarr m c (ix2 v (⟨512 * t.val + k.val, h⟩ : Fin 16384)) := by
  unfold oblk oarr iblk
  rw [View.read_apply]
  show V m c main_v4 _ = V m c main_v4 _
  congr 1
  funext a
  apply Fin.ext
  match a with
  | ⟨0, _⟩ => show win0_1.index t 0 * 6 + 1 * v.val = v.val; rw [(Pieces.idx_win1 t).1]; omega
  | ⟨1, _⟩ => show win0_1.index t 1 * 512 + 1 * k.val = 512 * t.val + k.val; rw [(Pieces.idx_win1 t).2]; omega

end Cert.KernelIdeal.Frm

end
-- ==== Proof.KernelIdeal.Value.lean ====
/-
  What the region leaves in its two output arrays, at the extended reals. By induction over a core's sixteen points an
  accumulator's staging buffer after point 16·a + s holds, at (view v, feature col), the sum over the blocks 0 … s of
  core a and over each block's 512 rows of the one-hot entry times the row's entry (squared for the second
  accumulator): the first point starts from the zero block, every later one adds its block to what the point before
  left. The pipeline writes an accumulator back after a core's last point, into slab a of its array, and the two
  slabs cover the array: so each array is `Spec.blockSum` of the one-hot operand and of x (of x·x).
-/
import proofs.«413106_j3882650436522_3_alg».proof.Proof.KernelIdeal.Pieces

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx
open scoped BigOperators

variable (mI : (ℓ : Loc nD τ sig) → Buf (Elt Ideal) ℓ)

/-! ## The arithmetic of a core's partial sums -/

/-- Row `k` of block `b` of the batch. The remainder keeps it total; below 32 blocks it is `512·b + k`. -/
def rowAt (b : ℕ) (k : Fin 512) : Fin 16384 := ⟨(512 * b + k.val) % 16384, Nat.mod_lt _ (by decide)⟩

theorem rowAt_eq (b : ℕ) (k : Fin 512) (h : 512 * b + k.val < 16384) : rowAt b k = ⟨512 * b + k.val, h⟩ :=
  Fin.ext (Nat.mod_eq_of_lt h)

theorem rowAt_rowOf (a : Fin 2) (s : Fin 16) (k : Fin 512) : rowAt (16 * a.val + s.val) k = Cert.Spec.rowOf a s k :=
  Fin.ext (Nat.mod_eq_of_lt (by have := a.isLt; have := s.isLt; have := k.isLt; omega))

/-- What block `b` adds at (view `v`, feature `col`): over its 512 rows, the one-hot entry times the operand's entry. -/
def blockDot (oh : Vec Ideal S6x16384 .f32) (y : Vec Ideal S16384x2048 .f32) (v : Fin 6) (col : Fin 2048) (b : ℕ) : Ideal .f32 :=
  ∑ k : Fin 512, oh (ix2 v (rowAt b k)) * y (ix2 (rowAt b k) col)

/-- What a core's accumulator holds after point `n`: the blocks of the core's half up to `n`, added. -/
def partSum (oh : Vec Ideal S6x16384 .f32) (y : Vec Ideal S16384x2048 .f32) (v : Fin 6) (col : Fin 2048) (n : ℕ) : Ideal .f32 :=
  ∑ s ∈ Finset.range (n % 16 + 1), blockDot oh y v col (16 * (n / 16) + s)

/-- At a core's first point it is that point's block alone. -/
theorem partSum_first (oh : Vec Ideal S6x16384 .f32) (y : Vec Ideal S16384x2048 .f32) (v : Fin 6) (col : Fin 2048) (n : ℕ)
    (h0 : n % 16 = 0) : partSum oh y v col n = blockDot oh y v col n := by
  unfold partSum
  rw [h0, Finset.sum_range_one, show 16 * (n / 16) + 0 = n by omega]

/-- At a later point it is what the point before left plus the point's block. -/
theorem partSum_step (oh : Vec Ideal S6x16384 .f32) (y : Vec Ideal S16384x2048 .f32) (v : Fin 6) (col : Fin 2048) (n : ℕ)
    (h0 : ¬n % 16 = 0) : partSum oh y v col n = partSum oh y v col (n - 1) + blockDot oh y v col n := by
  unfold partSum
  rw [show (n - 1) / 16 = n / 16 by omega, show (n - 1) % 16 + 1 = n % 16 by omega, Finset.sum_range_succ,
    show 16 * (n / 16) + n % 16 = n by omega]

/-- At a core's last point it is all sixteen blocks of the core's half. -/
theorem partSum_last (oh : Vec Ideal S6x16384 .f32) (y : Vec Ideal S16384x2048 .f32) (v : Fin 6) (col : Fin 2048) (n : ℕ)
    (h15 : n % 16 = 15) : partSum oh y v col n = ∑ s : Fin 16, blockDot oh y v col (16 * (n / 16) + s.val) := by
  unfold partSum
  rw [h15]
  exact Finset.sum_range (fun s => blockDot oh y v col (16 * (n / 16) + s))

/-- The target at explicit coordinates. -/
theorem blockSum_apply (oh : Vec Ideal S6x16384 .f32) (y : Vec Ideal S16384x2048 .f32) (a : Fin 2) (v : Fin 6) (col : Fin 2048) :
    Cert.Spec.blockSum oh y (ix3 a v col) = ∑ s : Fin 16, blockDot oh y v col (16 * a.val + s.val) := by
  unfold Cert.Spec.blockSum blockDot
  refine Finset.sum_congr rfl fun s _ => Finset.sum_congr rfl fun k _ => ?_
  rw [rowAt_rowOf]

/-! ## A point's block as a block of the batch -/

/-- The point's one-hot block times its row block, at (view, feature), is block `t`'s contribution. -/
theorem block_dot (c : Dev nD) (t : Fin cfg0.N) (v : Fin 6) (col : Fin 2048) :
    (∑ k : Fin 512, oblk mI c t (ix2 v k) * xblk mI c t (ix2 k col)) = blockDot (oarr mI c) (xarr mI c) v col t.val := by
  have hN : t.val < 32 := lt_of_lt_of_eq t.isLt (show cfg0.N = 32 from N_0)
  unfold blockDot
  refine Finset.sum_congr rfl fun k _ => ?_
  have h : 512 * t.val + k.val < 16384 := by have := k.isLt; omega
  rw [rowAt_eq t.val k h]
  exact congrArg₂ (· * ·) (oblk_apply mI c t v k h) (xblk_apply mI c t k col h)

/-- The same with the row block squared: the contribution of block `t` of x·x. -/
theorem block_dot_sq (c : Dev nD) (t : Fin cfg0.N) (v : Fin 6) (col : Fin 2048) :
    (∑ k : Fin 512, oblk mI c t (ix2 v k) * (xblk mI c t (ix2 k col) * xblk mI c t (ix2 k col)))
      = blockDot (oarr mI c) (mulf (xarr mI c) (xarr mI c)) v col t.val := by
  have hN : t.val < 32 := lt_of_lt_of_eq t.isLt (show cfg0.N = 32 from N_0)
  unfold blockDot
  refine Finset.sum_congr rfl fun k _ => ?_
  have h : 512 * t.val + k.val < 16384 := by have := k.isLt; omega
  rw [rowAt_eq t.val k h]
  exact congrArg₂ (· * ·) (oblk_apply mI c t v k h)
    (congrArg₂ (· * ·) (xblk_apply mI c t k col h) (xblk_apply mI c t k col h))

/-! ## The accumulators after each point -/

/-- After point `n` the first accumulator's staging buffer holds, at (view, feature), the partial sum of its core's half. -/
theorem acc2_at (c : Dev nD) (v : Fin 6) (col : Fin 2048) : ∀ (n : ℕ) (hn : n < cfg0.N),
    (outsAt0 mI c n hn).1 (ix3 (0 : Fin 1) v col) = partSum (oarr mI c) (xarr mI c) v col n := by
  intro n
  induction n using Nat.strong_induction_on with
  | _ n ih =>
    intro hn
    by_cases h0 : n % 16 = 0
    · rw [outsAt0_A mI c ⟨n, hn⟩ h0]
      dsimp only
      refine (congrFun (out0_A_2_eq (F := Ideal) c (grid0.coords ⟨n, hn⟩) (ms0_0 ⟨n, hn⟩) (hs0_0 ⟨n, hn⟩) (ms0_1 ⟨n, hn⟩) (hs0_1 ⟨n, hn⟩)
        (ms0_2 ⟨n, hn⟩) (hs0_2 ⟨n, hn⟩) (ms0_3 ⟨n, hn⟩) (hs0_3 ⟨n, hn⟩) ((hcond0_0 ⟨n, hn⟩).mpr h0)
        (xblk mI c ⟨n, hn⟩) (oblk mI c ⟨n, hn⟩)) (ix3 (0 : Fin 1) v col)).trans ?_
      rw [pay4_apply, pay1_apply, zero_add, block_dot mI c ⟨n, hn⟩ v col, partSum_first _ _ _ _ _ h0]
    · rw [outsAt0_B mI c ⟨n, hn⟩ h0]
      dsimp only
      refine (congrFun (out0_B_2_eq (F := Ideal) c (grid0.coords ⟨n, hn⟩) (ms0_0 ⟨n, hn⟩) (hs0_0 ⟨n, hn⟩) (ms0_1 ⟨n, hn⟩) (hs0_1 ⟨n, hn⟩)
        (ms0_2 ⟨n, hn⟩) (hs0_2 ⟨n, hn⟩) (ms0_3 ⟨n, hn⟩) (hs0_3 ⟨n, hn⟩) (fun h => h0 ((hcond0_0 ⟨n, hn⟩).mp h))
        (xblk mI c ⟨n, hn⟩) (oblk mI c ⟨n, hn⟩)
        (outsAt0 mI c (n - 1) (Nat.lt_of_le_of_lt (Nat.sub_le _ _) hn)).1
        (outsAt0 mI c (n - 1) (Nat.lt_of_le_of_lt (Nat.sub_le _ _) hn)).2) (ix3 (0 : Fin 1) v col)).trans ?_
      rw [pay4_apply, ih (n - 1) (by omega) (Nat.lt_of_le_of_lt (Nat.sub_le _ _) hn), block_dot mI c ⟨n, hn⟩ v col,
        partSum_step _ _ _ _ _ h0]

/-- After point `n` the second accumulator's staging buffer holds the same partial sum of x·x. -/
theorem acc3_at (c : Dev nD) (v : Fin 6) (col : Fin 2048) : ∀ (n : ℕ) (hn : n < cfg0.N),
    (outsAt0 mI c n hn).2 (ix3 (0 : Fin 1) v col) = partSum (oarr mI c) (mulf (xarr mI c) (xarr mI c)) v col n := by
  intro n
  induction n using Nat.strong_induction_on with
  | _ n ih =>
    intro hn
    by_cases h0 : n % 16 = 0
    · rw [outsAt0_A mI c ⟨n, hn⟩ h0]
      dsimp only
      refine (congrFun (out0_A_3_eq (F := Ideal) c (grid0.coords ⟨n, hn⟩) (ms0_0 ⟨n, hn⟩) (hs0_0 ⟨n, hn⟩) (ms0_1 ⟨n, hn⟩) (hs0_1 ⟨n, hn⟩)
        (ms0_2 ⟨n, hn⟩) (hs0_2 ⟨n, hn⟩) (ms0_3 ⟨n, hn⟩) (hs0_3 ⟨n, hn⟩) ((hcond0_0 ⟨n, hn⟩).mpr h0)
        (xblk mI c ⟨n, hn⟩) (oblk mI c ⟨n, hn⟩)) (ix3 (0 : Fin 1) v col)).trans ?_
      rw [pay5_apply, pay2_apply, zero_add, block_dot_sq mI c ⟨n, hn⟩ v col, partSum_first _ _ _ _ _ h0]
    · rw [outsAt0_B mI c ⟨n, hn⟩ h0]
      dsimp only
      refine (congrFun (out0_B_3_eq (F := Ideal) c (grid0.coords ⟨n, hn⟩) (ms0_0 ⟨n, hn⟩) (hs0_0 ⟨n, hn⟩) (ms0_1 ⟨n, hn⟩) (hs0_1 ⟨n, hn⟩)
        (ms0_2 ⟨n, hn⟩) (hs0_2 ⟨n, hn⟩) (ms0_3 ⟨n, hn⟩) (hs0_3 ⟨n, hn⟩) (fun h => h0 ((hcond0_0 ⟨n, hn⟩).mp h))
        (xblk mI c ⟨n, hn⟩) (oblk mI c ⟨n, hn⟩)
        (outsAt0 mI c (n - 1) (Nat.lt_of_le_of_lt (Nat.sub_le _ _) hn)).1
        (outsAt0 mI c (n - 1) (Nat.lt_of_le_of_lt (Nat.sub_le _ _) hn)).2) (ix3 (0 : Fin 1) v col)).trans ?_
      rw [pay5_apply, ih (n - 1) (by omega) (Nat.lt_of_le_of_lt (Nat.sub_le _ _) hn), block_dot_sq mI c ⟨n, hn⟩ v col,
        partSum_step _ _ _ _ _ h0]

/-! ## From the last point of a core to its slab of the array -/

/-- The accumulators' block index at a point is (the point's core, 0, 0): decided over the grid. -/
theorem slab2 : ∀ t : Fin cfg0.N, win0_2.index t (0 : Fin 3) = t.val / 16 ∧ win0_2.index t (1 : Fin 3) = 0 ∧ win0_2.index t (2 : Fin 3) = 0 :=
  (by decide +kernel : ∀ t : Fin grid0.N, win0_2.index t (0 : Fin 3) = t.val / 16 ∧ win0_2.index t (1 : Fin 3) = 0 ∧ win0_2.index t (2 : Fin 3) = 0)
theorem slab3 : ∀ t : Fin cfg0.N, win0_3.index t (0 : Fin 3) = t.val / 16 ∧ win0_3.index t (1 : Fin 3) = 0 ∧ win0_3.index t (2 : Fin 3) = 0 :=
  (by decide +kernel : ∀ t : Fin grid0.N, win0_3.index t (0 : Fin 3) = t.val / 16 ∧ win0_3.index t (1 : Fin 3) = 0 ∧ win0_3.index t (2 : Fin 3) = 0)

/-- What a core's last point writes back of the first accumulator is slab (core) of the block sums of x. -/
theorem flushed2_eq (c : Dev nD) (t : Fin cfg0.N) (hf : (cfg0.win 2).flush t = true) :
    (dats mI 0 c).flushed 2 t
      = ((cfg0.win 2).blk t).view.read (Elt Ideal) (Cert.Spec.blockSum (oarr mI c) (xarr mI c)) := by
  have h15 : t.val % 16 = 15 := (flush0_2 t).mp hf
  have hN : t.val < 32 := lt_of_lt_of_eq t.isLt (show cfg0.N = 32 from N_0)
  obtain ⟨e0, e1, e2⟩ := slab2 t
  show (cfg0.win 2).cut (grid0.coords t) ((dats mI 0 c).after 2 t) = _
  rw [after0_2]
  funext j
  have hj0 : (j 0).val < 1 := (j 0).isLt
  have hj1 : (j 1).val < 6 := (j 1).isLt
  have hj2 : (j 2).val < 2048 := (j 2).isLt
  show (outsAt0 mI c t.val t.isLt).1 (win0_2.xinj (grid0.coords t) j)
    = Cert.Spec.blockSum (oarr mI c) (xarr mI c) (((cfg0.win 2).blk t).view.emb j)
  have hl : (win0_2.xinj (grid0.coords t) j : S1x6x2048.Idx) = ix3 (0 : Fin 1) (⟨(j 1).val, hj1⟩ : Fin 6) (⟨(j 2).val, hj2⟩ : Fin 2048) := by
    funext a; apply Fin.ext
    match a with
    | ⟨0, _⟩ => show (j 0).val = 0; omega
    | ⟨1, _⟩ => rfl
    | ⟨2, _⟩ => rfl
  have hr : (((cfg0.win 2).blk t).view.emb j : S2x6x2048.Idx)
      = ix3 (⟨t.val / 16, by omega⟩ : Fin 2) (⟨(j 1).val, hj1⟩ : Fin 6) (⟨(j 2).val, hj2⟩ : Fin 2048) := by
    funext a; apply Fin.ext
    match a with
    | ⟨0, _⟩ => show win0_2.index t (0 : Fin 3) * 1 + 1 * (j 0).val = t.val / 16; rw [e0]; omega
    | ⟨1, _⟩ => show win0_2.index t (1 : Fin 3) * 6 + 1 * (j 1).val = (j 1).val; rw [e1]; omega
    | ⟨2, _⟩ => show win0_2.index t (2 : Fin 3) * 2048 + 1 * (j 2).val = (j 2).val; rw [e2]; omega
  rw [hl, hr, acc2_at mI c _ _ t.val t.isLt, blockSum_apply, partSum_last _ _ _ _ _ h15]

/-- Every index of the first accumulator's array lies in the block its core's last point writes back. -/
theorem cover2 (i : S2x6x2048.Idx) :
    ∃ t : Fin cfg0.N, (cfg0.win 2).flush t = true ∧ i ∈ ((cfg0.win 2).blk t).view.set := by
  have hi0 : (i 0).val < 2 := (i 0).isLt
  have hi1 : (i 1).val < 6 := (i 1).isLt
  have hi2 : (i 2).val < 2048 := (i 2).isLt
  have hlt : 16 * (i 0).val + 15 < cfg0.N := by rw [show cfg0.N = 32 from N_0]; omega
  obtain ⟨t, ht⟩ : ∃ t : Fin cfg0.N, t.val = 16 * (i 0).val + 15 := ⟨⟨_, hlt⟩, rfl⟩
  obtain ⟨e0, e1, e2⟩ := slab2 t
  refine ⟨t, (flush0_2 t).mpr (by omega), ?_⟩
  show i ∈ ((View.whole main_v5_0).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 6 ≤ (i 1).val ∧ (i 1).val < win0_2.index t (1 : Fin 3) * 6 + 6; omega
  | ⟨2, _⟩ => show win0_2.index t (2 : Fin 3) * 2048 ≤ (i 2).val ∧ (i 2).val < win0_2.index t (2 : Fin 3) * 2048 + 2048; omega

/-- So the first accumulator's array ends holding the block sums of x. -/
theorem final2 (c : Dev nD) :
    ((dats (F := Ideal) mI 0 c).arrAt 2 cfg0.N : S2x6x2048.Idx → Ideal .f32)
      = Cert.Spec.blockSum (oarr mI c) (xarr mI c) :=
  (dats (F := Ideal) mI 0 c).arrAt_eq_of_cover 2 (Cert.Spec.blockSum (oarr mI c) (xarr mI c)) (flushed2_eq mI c) cover2

/-- What a core's last point writes back of the second accumulator is slab (core) of the block sums of x·x. -/
theorem flushed3_eq (c : Dev nD) (t : Fin cfg0.N) (hf : (cfg0.win 3).flush t = true) :
    (dats mI 0 c).flushed 3 t
      = ((cfg0.win 3).blk t).view.read (Elt Ideal) (Cert.Spec.blockSum (oarr mI c) (mulf (xarr mI c) (xarr mI c))) := by
  have h15 : t.val % 16 = 15 := (flush0_3 t).mp hf
  have hN : t.val < 32 := lt_of_lt_of_eq t.isLt (show cfg0.N = 32 from N_0)
  obtain ⟨e0, e1, e2⟩ := slab3 t
  show (cfg0.win 3).cut (grid0.coords t) ((dats mI 0 c).after 3 t) = _
  rw [after0_3]
  funext j
  have hj0 : (j 0).val < 1 := (j 0).isLt
  have hj1 : (j 1).val < 6 := (j 1).isLt
  have hj2 : (j 2).val < 2048 := (j 2).isLt
  show (outsAt0 mI c t.val t.isLt).2 (win0_3.xinj (grid0.coords t) j)
    = Cert.Spec.blockSum (oarr mI c) (mulf (xarr mI c) (xarr mI c)) (((cfg0.win 3).blk t).view.emb j)
  have hl : (win0_3.xinj (grid0.coords t) j : S1x6x2048.Idx) = ix3 (0 : Fin 1) (⟨(j 1).val, hj1⟩ : Fin 6) (⟨(j 2).val, hj2⟩ : Fin 2048) := by
    funext a; apply Fin.ext
    match a with
    | ⟨0, _⟩ => show (j 0).val = 0; omega
    | ⟨1, _⟩ => rfl
    | ⟨2, _⟩ => rfl
  have hr : (((cfg0.win 3).blk t).view.emb j : S2x6x2048.Idx)
      = ix3 (⟨t.val / 16, by omega⟩ : Fin 2) (⟨(j 1).val, hj1⟩ : Fin 6) (⟨(j 2).val, hj2⟩ : Fin 2048) := by
    funext a; apply Fin.ext
    match a with
    | ⟨0, _⟩ => show win0_3.index t (0 : Fin 3) * 1 + 1 * (j 0).val = t.val / 16; rw [e0]; omega
    | ⟨1, _⟩ => show win0_3.index t (1 : Fin 3) * 6 + 1 * (j 1).val = (j 1).val; rw [e1]; omega
    | ⟨2, _⟩ => show win0_3.index t (2 : Fin 3) * 2048 + 1 * (j 2).val = (j 2).val; rw [e2]; omega
  rw [hl, hr, acc3_at mI c _ _ t.val t.isLt, blockSum_apply, partSum_last _ _ _ _ _ h15]

/-- Every index of the second accumulator's array lies in the block its core's last point writes back. -/
theorem cover3 (i : S2x6x2048.Idx) :
    ∃ t : Fin cfg0.N, (cfg0.win 3).flush t = true ∧ i ∈ ((cfg0.win 3).blk t).view.set := by
  have hi0 : (i 0).val < 2 := (i 0).isLt
  have hi1 : (i 1).val < 6 := (i 1).isLt
  have hi2 : (i 2).val < 2048 := (i 2).isLt
  have hlt : 16 * (i 0).val + 15 < cfg0.N := by rw [show cfg0.N = 32 from N_0]; omega
  obtain ⟨t, ht⟩ : ∃ t : Fin cfg0.N, t.val = 16 * (i 0).val + 15 := ⟨⟨_, hlt⟩, rfl⟩
  obtain ⟨e0, e1, e2⟩ := slab3 t
  refine ⟨t, (flush0_3 t).mpr (by omega), ?_⟩
  show i ∈ ((View.whole main_v5_1).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 6 ≤ (i 1).val ∧ (i 1).val < win0_3.index t (1 : Fin 3) * 6 + 6; omega
  | ⟨2, _⟩ => show win0_3.index t (2 : Fin 3) * 2048 ≤ (i 2).val ∧ (i 2).val < win0_3.index t (2 : Fin 3) * 2048 + 2048; omega

/-- So the second accumulator's array ends holding the block sums of x·x. -/
theorem final3 (c : Dev nD) :
    ((dats (F := Ideal) mI 0 c).arrAt 3 cfg0.N : S2x6x2048.Idx → Ideal .f32)
      = Cert.Spec.blockSum (oarr mI c) (mulf (xarr mI c) (xarr mI c)) :=
  (dats (F := Ideal) mI 0 c).arrAt_eq_of_cover 3 (Cert.Spec.blockSum (oarr mI c) (mulf (xarr mI c) (xarr mI c))) (flushed3_eq mI c) cover3

end Cert.KernelIdeal.Frm

end
-- ==== Proof.AlgReal.lean ====
/-
  The real-number identity behind the one-pass variance: over a finite set with sum S, sum of squares Q and count n,
  and μ = S / max(n, 1), one has Q − n·μ·μ = Σ (x − μ)² ≥ 0, so clamping the left side at zero changes nothing.
-/
import Idealize.ShloMosaic.PureOps.Ideal

noncomputable section

open scoped BigOperators

namespace Cert.Spec.Alg

/-- One pass and two passes: with μ the sum over max(count, 1), the sum of squares minus count · μ · μ is the sum of the
    squared distances to μ, and is not negative. -/
theorem var_identity {ι : Type} (s : Finset ι) (x : ι → ℝ) :
    max ((∑ i ∈ s, x i * x i) - (s.card : ℝ) * ((∑ i ∈ s, x i) * (1 / max (s.card : ℝ) 1)) * ((∑ i ∈ s, x i) * (1 / max (s.card : ℝ) 1))) 0
      = ∑ i ∈ s, (x i - (∑ i ∈ s, x i) * (1 / max (s.card : ℝ) 1)) * (x i - (∑ i ∈ s, x i) * (1 / max (s.card : ℝ) 1)) := by
  set S : ℝ := ∑ i ∈ s, x i with hSdef
  set μ : ℝ := S * (1 / max (s.card : ℝ) 1) with hμ
  have hS : S = (s.card : ℝ) * μ := by
    by_cases h0 : s.card = 0
    · have : s = ∅ := Finset.card_eq_zero.1 h0
      subst this
      simp [hSdef]
    · have h1 : (1 : ℝ) ≤ (s.card : ℝ) := by exact_mod_cast Nat.one_le_iff_ne_zero.2 h0
      rw [hμ, max_eq_left h1]
      field_simp
  have hexp : ∑ i ∈ s, (x i - μ) * (x i - μ) = (∑ i ∈ s, x i * x i) - (s.card : ℝ) * μ * μ := by
    have : ∀ i ∈ s, (x i - μ) * (x i - μ) = x i * x i - 2 * μ * x i + μ * μ := fun i _ => by ring
    rw [Finset.sum_congr rfl this, Finset.sum_add_distrib, Finset.sum_sub_distrib, ← Finset.mul_sum, Finset.sum_const,
      nsmul_eq_mul, ← hSdef, hS]
    ring
  rw [← hexp]
  exact max_eq_left (Finset.sum_nonneg fun i _ => mul_self_nonneg _)

end Cert.Spec.Alg

end
-- ==== Proof.AlgIdx.lean ====
/-
  The two programs' layout operations read index by index at the extended reals. A row's update lands in view v's slot
  exactly when its view id, read signed, is v (both scatters); so each scatter is a sum over the rows of a view, and the
  count is the number of such rows. At a row of view v the gathered mean is view v's mean. The one-hot entry at (v, n)
  is one exactly when row n is of view v, and (core, block, row of block) ↦ row is a bijection, so the two cores'
  accumulators of the one-hot product, added, are again the sum over the rows of the view. Also: the coercion of the
  reals into the extended reals commutes with finite sums and with max.
-/
import proofs.«413106_j3882650436522_3_alg».proof.Proof.Spec
import Idealize.ShloMosaic.PureOps.Ideal.Laws
import Idealize.ShloMosaic.Lib.StableHlo.Predicate
import Idealize.ShloMosaic.Lib.IdealHost

noncomputable section

open scoped BigOperators

namespace Cert.Spec.Alg

open Idealize.ShloMosaic Idealize.ShloMosaic.ValueIdx

/-! ## Where an update lands -/

/-- The start of row n's window on the view axis is its view id read signed. -/
theorem start2_0 (x3 : IVec S16384 32) (n : Fin 16384) (c : Fin 2048) :
    scatterRows2.start (ix2 n c) (idxCol x3) (0 : Fin 2) = (x3 (ix1 n)).toInt := by
  unfold ScatterDims.start
  rw [dif_pos (by decide)]
  refine congrArg (fun i => (x3 i).toInt) ?_
  funext a
  match a with
  | ⟨0, _⟩ => rfl

theorem start2_1 (x3 : IVec S16384 32) (n : Fin 16384) (c : Fin 2048) :
    scatterRows2.start (ix2 n c) (idxCol x3) (1 : Fin 2) = 0 := by
  unfold ScatterDims.start
  rw [dif_neg (by decide)]

theorem window2_0 (n : Fin 16384) (c : Fin 2048) : scatterRows2.window (ix2 n c) (0 : Fin 2) = 0 := by
  unfold ScatterDims.window
  rw [dif_neg (by decide)]

theorem window2_1 (n : Fin 16384) (c : Fin 2048) : scatterRows2.window (ix2 n c) (1 : Fin 2) = c.val := by
  unfold ScatterDims.window
  rw [dif_pos (by decide)]
  rfl

/-- Row n's entry at feature c lands at (v, c') exactly when n's view id, read signed, is v and c = c'. -/
theorem res2_iff (x3 : IVec S16384 32) (n : Fin 16384) (c : Fin 2048) (v : Fin 6) (c' : Fin 2048) :
    scatterRows2.resultIdx? (ix2 n c) (idxCol x3) = some (ix2 v c') ↔ ((x3 (ix1 n)).toInt = (v.val : Int) ∧ c = c') := by
  have h0 := start2_0 x3 n c
  have h1 := start2_1 x3 n c
  have w0 := window2_0 n c
  have w1 := window2_1 n c
  have hv := v.isLt
  have hc := c.isLt
  unfold ScatterDims.resultIdx?
  split
  · next h =>
    rw [Option.some.injEq]
    constructor
    · intro hf
      have e0 : (scatterRows2.start (ix2 n c) (idxCol x3) (0 : Fin 2) + (scatterRows2.window (ix2 n c) (0 : Fin 2) : Int)).toNat = v.val :=
        congrArg (fun f : S6x2048.Idx => (f (0 : Fin 2)).val) hf
      have e1 : (scatterRows2.start (ix2 n c) (idxCol x3) (1 : Fin 2) + (scatterRows2.window (ix2 n c) (1 : Fin 2) : Int)).toNat = c'.val :=
        congrArg (fun f : S6x2048.Idx => (f (1 : Fin 2)).val) hf
      have g0 := (h (0 : Fin 2)).1
      rw [h0, w0] at e0 g0
      rw [h1, w1] at e1
      refine ⟨by omega, Fin.ext (by omega)⟩
    · rintro ⟨hx, rfl⟩
      funext a
      match a with
      | ⟨0, _⟩ => exact Fin.ext (by show (scatterRows2.start (ix2 n c) (idxCol x3) (0 : Fin 2) + (scatterRows2.window (ix2 n c) (0 : Fin 2) : Int)).toNat = v.val; rw [h0, w0]; omega)
      | ⟨1, _⟩ => exact Fin.ext (by show (scatterRows2.start (ix2 n c) (idxCol x3) (1 : Fin 2) + (scatterRows2.window (ix2 n c) (1 : Fin 2) : Int)).toNat = c.val; rw [h1, w1]; omega)
  · next h =>
    constructor
    · intro hf; exact absurd hf (by simp)
    · rintro ⟨hx, rfl⟩
      exfalso; apply h
      intro a
      match a with
      | ⟨0, _⟩ =>
        show 0 ≤ scatterRows2.start (ix2 n c) (idxCol x3) (0 : Fin 2) + (scatterRows2.window (ix2 n c) (0 : Fin 2) : Int) ∧ scatterRows2.start (ix2 n c) (idxCol x3) (0 : Fin 2) + (scatterRows2.window (ix2 n c) (0 : Fin 2) : Int) < 6
        rw [h0, w0]; omega
      | ⟨1, _⟩ =>
        show 0 ≤ scatterRows2.start (ix2 n c) (idxCol x3) (1 : Fin 2) + (scatterRows2.window (ix2 n c) (1 : Fin 2) : Int) ∧ scatterRows2.start (ix2 n c) (idxCol x3) (1 : Fin 2) + (scatterRows2.window (ix2 n c) (1 : Fin 2) : Int) < 2048
        rw [h1, w1]; omega

theorem start1_0 (x3 : IVec S16384 32) (n : Fin 16384) :
    scatterRows1.start (ix1 n) (idxCol x3) (0 : Fin 1) = (x3 (ix1 n)).toInt := by
  unfold ScatterDims.start
  rw [dif_pos (by decide)]
  refine congrArg (fun i => (x3 i).toInt) ?_
  funext a
  match a with
  | ⟨0, _⟩ => rfl

theorem window1_0 (n : Fin 16384) : scatterRows1.window (ix1 n) (0 : Fin 1) = 0 := by
  unfold ScatterDims.window
  rw [dif_neg (by decide)]

/-- Row n's one lands at slot v exactly when n's view id, read signed, is v. -/
theorem res1_iff (x3 : IVec S16384 32) (n : Fin 16384) (v : Fin 6) :
    scatterRows1.resultIdx? (ix1 n) (idxCol x3) = some (ix1 v) ↔ (x3 (ix1 n)).toInt = (v.val : Int) := by
  have h0 := start1_0 x3 n
  have w0 := window1_0 n
  have hv := v.isLt
  unfold ScatterDims.resultIdx?
  split
  · next h =>
    rw [Option.some.injEq]
    constructor
    · intro hf
      have e0 : (scatterRows1.start (ix1 n) (idxCol x3) (0 : Fin 1) + (scatterRows1.window (ix1 n) (0 : Fin 1) : Int)).toNat = v.val :=
        congrArg (fun f : S6.Idx => (f (0 : Fin 1)).val) hf
      have g0 := (h (0 : Fin 1)).1
      rw [h0, w0] at e0 g0
      omega
    · intro hx
      funext a
      match a with
      | ⟨0, _⟩ => exact Fin.ext (by show (scatterRows1.start (ix1 n) (idxCol x3) (0 : Fin 1) + (scatterRows1.window (ix1 n) (0 : Fin 1) : Int)).toNat = v.val; rw [h0, w0]; omega)
  · next h =>
    constructor
    · intro hf; exact absurd hf (by simp)
    · intro hx
      exfalso; apply h
      intro a
      match a with
      | ⟨0, _⟩ =>
        show 0 ≤ scatterRows1.start (ix1 n) (idxCol x3) (0 : Fin 1) + (scatterRows1.window (ix1 n) (0 : Fin 1) : Int) ∧ scatterRows1.start (ix1 n) (idxCol x3) (0 : Fin 1) + (scatterRows1.window (ix1 n) (0 : Fin 1) : Int) < 6
        rw [h0, w0]; omega

/-! ## Layout operations read at an index -/

/-- A per-view vector spread over the features reads the view's entry. -/
theorem colB_apply {α : Type} (f : S6.Idx → α) (v : Fin 6) (c : Fin 2048) : colB f (ix2 v c) = f (ix1 v) := by
  unfold colB
  simp only [broadcastInDim]
  refine congrArg f ?_
  funext a
  match a with
  | ⟨0, _⟩ => rfl

/-- The view ids as a column read the row's id. -/
theorem idxCol_apply (x3 : IVec S16384 32) (n : Fin 16384) (z : Fin 1) : idxCol x3 (ix2 n z) = x3 (ix1 n) := by
  unfold idxCol
  simp only [broadcastInDim]
  refine congrArg x3 ?_
  funext a
  match a with
  | ⟨0, _⟩ => rfl

theorem ones6_apply (i : S6.Idx) : ones6 (F := Ideal) i = 1 := by
  show Ideal.ofBits .f32 0x3F800000#32 = 1
  exact Ideal.ofBits_one_f32

theorem zeros6x2048_apply (i : S6x2048.Idx) : zeros6x2048 (F := Ideal) i = 0 := by
  show Ideal.ofBits .f32 0x00000000#32 = 0
  exact Ideal.ofBits_zero_f32

/-- For a view below six, "the id word is the view's word" and "the id read signed is the view" are one condition. -/
theorem word_eq_iff (w : BitVec 32) (v : Fin 6) : BitVec.ofNat 32 v.val = w ↔ w.toInt = (v.val : Int) := by
  have hv := v.isLt
  constructor
  · intro h; rw [← h]; exact StableHlo.Predicate.toInt_ofNat_small v.val (by omega)
  · intro h
    apply BitVec.eq_of_toInt_eq
    rw [h]; exact StableHlo.Predicate.toInt_ofNat_small v.val (by omega)

/-- The one-hot entry: one where the row's view id is the view, else zero. -/
theorem ohT_apply (x3 : IVec S16384 32) (v : Fin 6) (n : Fin 16384) :
    ohT (F := Ideal) x3 (ix2 v n) = if (x3 (ix1 n)).toInt = (v.val : Int) then 1 else 0 := by
  have hb : broadcastInDim S6x16384 ![0, 1] bcast_S1x16384_S6x16384_0_1 (broadcastInDim S1x16384 ![1] bcast_S16384_S1x16384_1 x3) (ix2 v n)
      = x3 (ix1 n) := by
    simp only [broadcastInDim]
    refine congrArg x3 ?_
    funext a
    match a with
    | ⟨0, _⟩ => rfl
  show (((IntOp.cmpi .eq (iotaInDim S6x16384 32 0 (ix2 v n))
    (broadcastInDim S6x16384 ![0, 1] bcast_S1x16384_S6x16384_0_1 (broadcastInDim S1x16384 ![1] bcast_S16384_S1x16384_1 x3) (ix2 v n))).toNat : ℝ) : EReal) = _
  rw [hb]
  show (((IntOp.cmpi .eq (BitVec.ofNat 32 v.val) (x3 (ix1 n))).toNat : ℝ) : EReal) = _
  by_cases h : (x3 (ix1 n)).toInt = (v.val : Int)
  · rw [if_pos h, StableHlo.Predicate.cmpi_eq_iff.2 ((word_eq_iff _ v).2 h)]; simp
  · rw [if_neg h]
    have : IntOp.cmpi .eq (BitVec.ofNat 32 v.val) (x3 (ix1 n)) = 0#1 :=
      eq_zero_of_ne_one (fun h1 => h ((word_eq_iff _ v).1 (StableHlo.Predicate.cmpi_eq_iff.1 h1)))
    rw [this]; simp

/-! ## The coercion of the reals into the extended reals -/

/-- The coercion of a finite real sum is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of a real maximum is the maximum of the coercions. -/
theorem coe_max (a b : ℝ) : ((max a b : ℝ) : EReal) = max (a : EReal) (b : EReal) :=
  EReal.coe_strictMono.monotone.map_max

/-! ## A rank-1 sum over its coordinate -/

/-- A rank-1 index set is its coordinate range, so a sum over it is the sum over the coordinate. -/
theorem sum_idx1 {M : Type} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-! ## The two scatters as sums over the rows of a view -/

/-- The scatter of rows by view, at (v, c): the sum over the rows whose view is v of the entry at feature c. -/
theorem scat2_apply (x3 : IVec S16384 32) (upd : FVec Ideal S16384x2048 .f32) (v : Fin 6) (c : Fin 2048) :
    Host.scatterAdd scatterRows2 (zeros6x2048 (F := Ideal)) (idxCol x3) upd (ix2 v c)
      = ∑ n : Fin 16384, if (x3 (ix1 n)).toInt = (v.val : Int) then upd (ix2 n c) else 0 := by
  show Ideal.hostScatterAdd scatterRows2 (zeros6x2048 (F := Ideal)) (idxCol x3) upd (ix2 v c) = _
  unfold Ideal.hostScatterAdd
  rw [zeros6x2048_apply, zero_add, Finset.sum_filter, sum_idx2]
  refine Finset.sum_congr rfl fun n _ => ?_
  simp only [res2_iff]
  by_cases h : (x3 (ix1 n)).toInt = (v.val : Int)
  · simp only [h, true_and, if_true]
    rw [Finset.sum_ite_eq' Finset.univ c (fun c' => upd (ix2 n c'))]
    simp
  · simp only [h, false_and, if_false]
    exact Finset.sum_const_zero

/-- The count of view v: the number of rows whose view is v. -/
theorem cntT_apply (x3 : IVec S16384 32) (v : Fin 6) :
    cntT (F := Ideal) x3 (ix1 v)
      = (((Finset.univ.filter fun n : Fin 16384 => (x3 (ix1 n)).toInt = (v.val : Int)).card : ℝ) : EReal) := by
  show Ideal.hostScatterAdd scatterRows1 _ (idxCol x3) _ (ix1 v) = _
  unfold Ideal.hostScatterAdd
  have hz : broadcastInDim S6 ![] bcast_S_S6 (constant (F := Ideal) S_ .f32 0x00000000#32) (ix1 v) = 0 := by
    show Ideal.ofBits .f32 0x00000000#32 = 0
    exact Ideal.ofBits_zero_f32
  rw [hz, zero_add]
  have hone : ∀ j, broadcastInDim S16384 ![] bcast_S_S16384 (constant (F := Ideal) S_ .f32 0x3F800000#32) j = ((1 : ℝ) : EReal) := by
    intro j
    show Ideal.ofBits .f32 0x3F800000#32 = _
    rw [Ideal.ofBits_one_f32]; rfl
  simp only [hone]
  rw [Finset.sum_filter, sum_idx1]
  simp only [res1_iff]
  have hite : ∀ n : Fin 16384, (if (x3 (ix1 n)).toInt = (v.val : Int) then ((1 : ℝ) : EReal) else 0)
      = (((if (x3 (ix1 n)).toInt = (v.val : Int) then 1 else 0 : ℝ)) : EReal) := by
    intro n; split <;> simp
  simp only [hite]
  rw [← coe_sum, Finset.sum_boole]

/-! ## The gather of a view's mean, at a row of that view -/

/-- A view id that reads as a view below six is not negative, so it is gathered as it stands. -/
theorem normIdx_apply (x3 : IVec S16384 32) (n : Fin 16384) (v : Fin 6) (h : (x3 (ix1 n)).toInt = (v.val : Int)) :
    normIdx x3 (ix1 n) = x3 (ix1 n) := by
  show Scalar.select (IntOp.cmpi .slt (x3 (ix1 n)) 0#32) _ (x3 (ix1 n)) = _
  have hw := (word_eq_iff (x3 (ix1 n)) v).2 h
  rw [← hw]
  have hv := v.isLt
  have : IntOp.cmpi .slt (BitVec.ofNat 32 v.val) 0#32 = 0#1 := by
    match v with
    | ⟨0, _⟩ => rfl
    | ⟨1, _⟩ => rfl
    | ⟨2, _⟩ => rfl
    | ⟨3, _⟩ => rfl
    | ⟨4, _⟩ => rfl
    | ⟨5, _⟩ => rfl
  rw [this]
  exact select_zero _ _

/-- At a row of view v the gathered mean is the mean of view v. -/
theorem gather_at {α : Type} (mean : S6x2048.Idx → α) (x3 : IVec S16384 32) (n : Fin 16384) (c : Fin 2048) (v : Fin 6)
    (h : (x3 (ix1 n)).toInt = (v.val : Int)) :
    Host.gather gatherRows mean (idxCol (normIdx x3)) (ix2 n c) = mean (ix2 v c) := by
  unfold Host.gather
  refine congrArg mean ?_
  have hv := v.isLt
  have hs0 : gatherRows.start (ix2 n c) (idxCol (normIdx x3)) (0 : Fin 2) = v.val := by
    unfold GatherDims.start
    rw [dif_pos (by decide)]
    have hidx : idxCol (normIdx x3) (gatherRows.siIdx (ix2 n c) ⟨List.idxOf (0 : Fin 2) gatherRows.startIndexMap, List.idxOf_lt_length_iff.2 (by decide)⟩)
        = x3 (ix1 n) := by
      rw [← normIdx_apply x3 n v h]
      unfold idxCol
      simp only [broadcastInDim]
      refine congrArg (normIdx x3) ?_
      funext a
      match a with
      | ⟨0, _⟩ => rfl
    rw [hidx, h]
    show min ((v.val : Int).toNat) (6 - 1) = v.val
    omega
  have hs1 : gatherRows.start (ix2 n c) (idxCol (normIdx x3)) (1 : Fin 2) = 0 := by
    unfold GatherDims.start
    rw [dif_neg (by decide)]
  have hb0 : gatherRows.batchCoord (ix2 n c) (0 : Fin 2) = 0 := GatherDims.batchCoord_eq_zero _ _ _ (by decide)
  have hb1 : gatherRows.batchCoord (ix2 n c) (1 : Fin 2) = 0 := GatherDims.batchCoord_eq_zero _ _ _ (by decide)
  have ho0 : gatherRows.offCoord (ix2 n c) (0 : Fin 2) = 0 := GatherDims.offCoord_eq_zero _ _ _ (by decide)
  have ho1 : gatherRows.offCoord (ix2 n c) (1 : Fin 2) = c.val := by
    unfold GatherDims.offCoord
    rw [dif_pos (by decide)]
    rfl
  funext a
  match a with
  | ⟨0, _⟩ =>
    refine Fin.ext ?_
    show gatherRows.start (ix2 n c) (idxCol (normIdx x3)) (0 : Fin 2) + gatherRows.batchCoord (ix2 n c) (0 : Fin 2) + gatherRows.offCoord (ix2 n c) (0 : Fin 2) = v.val
    omega
  | ⟨1, _⟩ =>
    refine Fin.ext ?_
    show gatherRows.start (ix2 n c) (idxCol (normIdx x3)) (1 : Fin 2) + gatherRows.batchCoord (ix2 n c) (1 : Fin 2) + gatherRows.offCoord (ix2 n c) (1 : Fin 2) = c.val
    omega

/-! ## The kernel's accumulators as sums over the rows of a view -/

/-- Every row is row k of block s of one core's half, for exactly one (a, s, k). -/
theorem rowOf_bijective : Function.Bijective (fun p : Fin 2 × Fin 16 × Fin 512 => rowOf p.1 p.2.1 p.2.2) := by
  constructor
  · rintro ⟨a, s, k⟩ ⟨a', s', k'⟩ h
    have hv : 512 * (16 * a.val + s.val) + k.val = 512 * (16 * a'.val + s'.val) + k'.val := congrArg Fin.val h
    have ha := a.isLt; have ha' := a'.isLt; have hs := s.isLt; have hs' := s'.isLt; have hk := k.isLt; have hk' := k'.isLt
    have e1 : a = a' := Fin.ext (by omega)
    have e2 : s = s' := Fin.ext (by omega)
    have e3 : k = k' := Fin.ext (by omega)
    rw [e1, e2, e3]
  · intro n
    have hn := n.isLt
    refine ⟨(⟨n.val / 8192, by omega⟩, ⟨n.val / 512 % 16, by omega⟩, ⟨n.val % 512, by omega⟩), Fin.ext ?_⟩
    show 512 * (16 * (n.val / 8192) + n.val / 512 % 16) + n.val % 512 = n.val
    omega

/-- So a sum over cores, blocks and rows of a block is the sum over all rows. -/
theorem sum_rowOf {M : Type} [AddCommMonoid M] (f : Fin 16384 → M) :
    ∑ a : Fin 2, ∑ s : Fin 16, ∑ k : Fin 512, f (rowOf a s k) = ∑ n, f n := by
  rw [← rowOf_bijective.sum_comp f]
  simp only [Fintype.sum_prod_type]

/-- The two accumulators added, at (v, c). -/
theorem sumsK_apply (A : FVec Ideal S2x6x2048 .f32) (v : Fin 6) (c : Fin 2048) :
    sumsK (F := Ideal) A (ix2 v c) = ∑ a : Fin 2, A (ix3 a v c) := by
  have hR : S2x6x2048.Reduces [0] S6x2048 := by decide
  show Ideal.hostReduceAdd reducesTo_S2x6x2048_S6x2048_d0 A (Ideal.ofBits .f32 0x00000000#32) (ix2 v c) = _
  rw [Ideal.hostReduceAdd_single _ hR, Ideal.ofBits_zero_f32, zero_add]
  show ∑ k : Fin 2, A (hR.lift (ix2 v c) k) = _
  refine Finset.sum_congr rfl fun a _ => congrArg A ?_
  funext d
  match d with
  | ⟨0, _⟩ => exact Fin.ext rfl
  | ⟨1, _⟩ => exact Fin.ext rfl
  | ⟨2, _⟩ => exact Fin.ext rfl

/-- The one-hot product accumulated over both cores, at (v, c): the sum over the rows of view v. -/
theorem sumsK_blockSum (x3 : IVec S16384 32) (y : FVec Ideal S16384x2048 .f32) (v : Fin 6) (c : Fin 2048) :
    sumsK (F := Ideal) (blockSum (ohT (F := Ideal) x3) y) (ix2 v c)
      = ∑ n : Fin 16384, if (x3 (ix1 n)).toInt = (v.val : Int) then y (ix2 n c) else 0 := by
  rw [sumsK_apply]
  show ∑ a : Fin 2, ∑ s : Fin 16, ∑ k : Fin 512, ohT (F := Ideal) x3 (ix2 v (rowOf a s k)) * y (ix2 (rowOf a s k) c) = _
  rw [sum_rowOf (fun n => ohT (F := Ideal) x3 (ix2 v n) * y (ix2 n c))]
  refine Finset.sum_congr rfl fun n _ => ?_
  rw [ohT_apply]
  split
  · exact one_mul _
  · exact zero_mul _

end Cert.Spec.Alg

end
-- ==== Proof.Algebra.lean ====
/-
  Over the extended reals, with every entry of the batch finite: the one-hot product summed over all rows is the
  scatter of rows by view, and the one-pass variance numerator (sum of squares minus count times mean squared, clamped
  at zero) is the two-pass one (sum of squared distances to the view mean); so the kernel's result over its two
  accumulator arrays is the reference's.
-/
import proofs.«413106_j3882650436522_3_alg».proof.Proof.Spec
import proofs.«413106_j3882650436522_3_alg».proof.Proof.AlgReal
import proofs.«413106_j3882650436522_3_alg».proof.Proof.AlgIdx

noncomputable section

open scoped BigOperators

namespace Cert.Spec.Alg

open Idealize.ShloMosaic Idealize.ShloMosaic.ValueIdx

/-- The rows of view v. -/
def viewRows (x3 : IVec S16384 32) (v : Fin 6) : Finset (Fin 16384) :=
  Finset.univ.filter fun n : Fin 16384 => (x3 (ix1 n)).toInt = (v.val : Int)

/-- A sum of real entries over the rows of a view, written with the condition inside, is the coercion of the real sum. -/
theorem ite_sum_coe (x3 : IVec S16384 32) (v : Fin 6) (f : Fin 16384 → ℝ) :
    (∑ n : Fin 16384, if (x3 (ix1 n)).toInt = (v.val : Int) then (f n : EReal) else 0)
      = ((∑ n ∈ viewRows x3 v, f n : ℝ) : EReal) := by
  unfold viewRows
  rw [coe_sum, Finset.sum_filter]

/-- The accumulators added are the scatter, for any entries. -/
theorem sums_eq' (x0 : FVec Ideal S16384x2048 .f32) (x3 : IVec S16384 32) :
    sumsK (F := Ideal) (blockSum (ohT (F := Ideal) x3) x0) = sumsR (F := Ideal) x0 x3 := by
  funext j
  obtain ⟨v, c, rfl⟩ : ∃ (v : Fin 6) (c : Fin 2048), j = ix2 v c := ⟨j 0, j 1, eq_ix2 j⟩
  rw [sumsK_blockSum]
  exact (scat2_apply x3 x0 v c).symm

/-- The mean of view v at feature c, for real entries: the sum over the view's rows over max(count, 1). -/
theorem meanT_apply (r : S16384x2048.Idx → ℝ) (x3 : IVec S16384 32) (v : Fin 6) (c : Fin 2048) :
    meanT (sumsR (F := Ideal) (fun i => (r i : EReal)) x3) (cntT (F := Ideal) x3) (ix2 v c)
      = (((∑ n ∈ viewRows x3 v, r (ix2 n c)) * (1 / max ((viewRows x3 v).card : ℝ) 1) : ℝ) : EReal) := by
  unfold meanT sumsR
  rw [hostDivf_apply, colB_apply, maximumf_apply, scat2_apply, ite_sum_coe x3 v (fun n => r (ix2 n c)), cntT_apply, ones6_apply]
  have hne : max ((viewRows x3 v).card : ℝ) 1 ≠ 0 := (lt_of_lt_of_le one_pos (le_max_right _ _)).ne'
  unfold viewRows at hne ⊢
  rw [← EReal.coe_one, ← coe_max, Ideal.div_coe hne, ← EReal.coe_mul]

/-- One-pass and two-pass deviations agree, for real entries. -/
theorem std_eq' (r : S16384x2048.Idx → ℝ) (x3 : IVec S16384 32) :
    stdK (F := Ideal) (blockSum (ohT (F := Ideal) x3) (mulf (fun i => (r i : EReal)) (fun i => (r i : EReal)))) (cntT (F := Ideal) x3)
        (meanT (sumsR (F := Ideal) (fun i => (r i : EReal)) x3) (cntT (F := Ideal) x3))
      = stdR (F := Ideal) (fun i => (r i : EReal)) x3 (meanT (sumsR (F := Ideal) (fun i => (r i : EReal)) x3) (cntT (F := Ideal) x3))
        (cntT (F := Ideal) x3) := by
  unfold stdK stdR
  refine congrArg (fun N => Host.sqrt (Host.divf N (colB (denomT (cntT (F := Ideal) x3))))) ?_
  funext j
  obtain ⟨v, c, rfl⟩ : ∃ (v : Fin 6) (c : Fin 2048), j = ix2 v c := ⟨j 0, j 1, eq_ix2 j⟩
  -- the view's mean at this feature, a real number
  have hμ := meanT_apply r x3 v c
  generalize hm : meanT (sumsR (F := Ideal) (fun i => (r i : EReal)) x3) (cntT (F := Ideal) x3) = mean at hμ ⊢
  set μ : ℝ := (∑ n ∈ viewRows x3 v, r (ix2 n c)) * (1 / max ((viewRows x3 v).card : ℝ) 1) with hμdef
  -- the kernel's side: sum of squares minus count · μ · μ, clamped
  have hQ : sumsK (F := Ideal) (blockSum (ohT (F := Ideal) x3) (mulf (fun i => (r i : EReal)) (fun i => (r i : EReal)))) (ix2 v c)
      = ((∑ n ∈ viewRows x3 v, r (ix2 n c) * r (ix2 n c) : ℝ) : EReal) := by
    rw [sumsK_blockSum, ← ite_sum_coe x3 v (fun n => r (ix2 n c) * r (ix2 n c))]
    refine Finset.sum_congr rfl fun n _ => ?_
    split
    · exact (EReal.coe_mul _ _).symm
    · rfl
  -- the reference's side: squared distances to the gathered mean, which on a row of view v is μ
  have hR : Host.scatterAdd scatterRows2 (zeros6x2048 (F := Ideal)) (idxCol x3)
        (mulf (subf (fun i => (r i : EReal)) (Host.gather gatherRows mean (idxCol (normIdx x3))))
          (subf (fun i => (r i : EReal)) (Host.gather gatherRows mean (idxCol (normIdx x3))))) (ix2 v c)
      = ((∑ n ∈ viewRows x3 v, (r (ix2 n c) - μ) * (r (ix2 n c) - μ) : ℝ) : EReal) := by
    rw [scat2_apply, ← ite_sum_coe x3 v (fun n => (r (ix2 n c) - μ) * (r (ix2 n c) - μ))]
    refine Finset.sum_congr rfl fun n _ => ?_
    split
    · next h =>
      show ((r (ix2 n c) : EReal) - Host.gather gatherRows mean (idxCol (normIdx x3)) (ix2 n c))
        * ((r (ix2 n c) : EReal) - Host.gather gatherRows mean (idxCol (normIdx x3)) (ix2 n c)) = _
      rw [gather_at mean x3 n c v h, hμ, ← EReal.coe_sub, ← EReal.coe_mul]
    · rfl
  show max (sumsK (F := Ideal) (blockSum (ohT (F := Ideal) x3) (mulf (fun i => (r i : EReal)) (fun i => (r i : EReal)))) (ix2 v c)
      - colB (cntT (F := Ideal) x3) (ix2 v c) * mean (ix2 v c) * mean (ix2 v c)) (zeros6x2048 (F := Ideal) (ix2 v c)) = _
  rw [hR, hQ, colB_apply, cntT_apply, hμ, zeros6x2048_apply, ← EReal.coe_mul, ← EReal.coe_mul, ← EReal.coe_sub, ← EReal.coe_zero,
    ← coe_max]
  exact congrArg Real.toEReal (var_identity (viewRows x3 v) (fun n => r (ix2 n c)))

/-- A batch of real entries is the coercion of a real batch. -/
theorem exists_real (x0 : FVec Ideal S16384x2048 .f32) (hfin : ∀ i, ∃ r : ℝ, x0 i = (r : EReal)) :
    ∃ r : S16384x2048.Idx → ℝ, x0 = fun i => (r i : EReal) := by
  choose r hr using hfin
  exact ⟨r, funext hr⟩

end Cert.Spec.Alg

namespace Cert.Spec

open Idealize.ShloMosaic Idealize.ShloMosaic.ValueIdx

/-- Every entry of the batch is a real number. -/
def Finite (x : FVec Ideal S16384x2048 .f32) : Prop := ∀ i, ∃ r : ℝ, x i = (r : EReal)

/-- The two cores' accumulators of the one-hot product, added, are the rows scattered by view. -/
theorem sums_eq (x0 : FVec Ideal S16384x2048 .f32) (x3 : IVec S16384 32) (hfin : Finite x0) :
    sumsK (F := Ideal) (blockSum (ohT (F := Ideal) x3) x0) = sumsR (F := Ideal) x0 x3 :=
  Alg.sums_eq' x0 x3

/-- One-pass and two-pass deviations agree. -/
theorem std_eq (x0 : FVec Ideal S16384x2048 .f32) (x3 : IVec S16384 32) (hfin : Finite x0) :
    stdK (F := Ideal) (blockSum (ohT (F := Ideal) x3) (mulf x0 x0)) (cntT (F := Ideal) x3) (meanT (sumsR (F := Ideal) x0 x3) (cntT (F := Ideal) x3))
      = stdR (F := Ideal) x0 x3 (meanT (sumsR (F := Ideal) x0 x3) (cntT (F := Ideal) x3)) (cntT (F := Ideal) x3) := by
  obtain ⟨r, rfl⟩ := Alg.exists_real x0 hfin
  exact Alg.std_eq' r x3

/-- The kernel's result over its two accumulator arrays is the reference's result. -/
theorem ker_eq_ref (x0 : FVec Ideal S16384x2048 .f32) (a1 a2 : FVec Ideal S2048 .f32) (x3 : IVec S16384 32) (hfin : Finite x0) :
    kerT (F := Ideal) (blockSum (ohT (F := Ideal) x3) x0) (blockSum (ohT (F := Ideal) x3) (mulf x0 x0)) a1 a2 x3 = refT (F := Ideal) x0 a1 a2 x3 := by
  unfold kerT refT
  rw [sums_eq x0 x3 hfin, std_eq x0 x3 hfin]

end Cert.Spec

end
-- ==== Proof.Finite.lean ====
/-
  From the precondition to finiteness: the printed predicate is the conjunction of three `all(|·| < +inf)`, one per
  float argument; its first conjunct, read at an entry of x, says that the entry's absolute value is below +inf on
  the extended reals, so the entry is neither infinity: it is a real number.
-/
import proofs.«413106_j3882650436522_3_alg».proof.Pre_finite_inputs
import proofs.«413106_j3882650436522_3_alg».proof.Proof.Gen.Pre_finite_inputs
import proofs.«413106_j3882650436522_3_alg».proof.Proof.Spec
import Idealize.ShloMosaic.Lib.ReduceAll
import Idealize.ShloMosaic.Lib.Affine
import Idealize.ShloMosaic.Lib.ValueIdx

noncomputable section

namespace Cert.Pre_finite_inputs.Fin

open Idealize.ShloMosaic Idealize.ShloMosaic.ValueIdx Cert.Pre_finite_inputs Cert.Pre_finite_inputs.Gen

instance : Subsingleton S_.Idx := ⟨fun a b => funext fun d => d.elim0⟩

/-- An extended real whose absolute value is below +inf is a real. -/
theorem real_of_abs_lt (x : EReal) (h : max x (-x) < (⊤ : EReal)) : ∃ r : ℝ, x = (r : EReal) := by
  induction x using EReal.rec with
  | bot => simp at h
  | coe r => exact ⟨r, rfl⟩
  | top => simp at h

/-- Under the precondition every entry of the first argument is a real number. -/
theorem finite_arg0 (x0 : FVec Ideal S16384x2048 .f32) (x1 x2 : FVec Ideal S2048 .f32) (x3 : IVec S16384 32)
    (h : Cert.Pre_finite_inputs.fn (F := Ideal) x0 x1 x2 x3 = fun _ => 1#1) (i : S16384x2048.Idx) :
    ∃ r : ℝ, x0 i = (r : EReal) := by
  have h0 := congrFun h ix0
  dsimp only [Cert.Pre_finite_inputs.fn] at h0
  obtain ⟨h01, -⟩ := IntOp.andi_eq_one.1 h0
  obtain ⟨ha, -⟩ := IntOp.andi_eq_one.1 h01
  have hi := Host.reduce_andi_all _ _ _ _ _ ha i
  have hlt : max (x0 i) (-(x0 i)) < (⊤ : EReal) := by
    have hi' : Ideal.cmp .olt (max (x0 i) (-(x0 i))) (Ideal.ofBits .f32 0x7F800000#32) = 1#1 := hi
    have htop : Ideal.ofBits .f32 0x7F800000#32 = (⊤ : EReal) := by simp [Ideal.ofBits, Ideal.ieee]
    rw [htop] at hi'
    have hb : ∀ b : Bool, BitVec.ofBool b = 1#1 → b = true := by decide
    have hc : decide (max (x0 i) (-(x0 i)) < (⊤ : EReal)) = true := hb _ hi'
    exact of_decide_eq_true hc
  exact real_of_abs_lt _ hlt

end Cert.Pre_finite_inputs.Fin

end
-- ==== Proof.KernelIdeal.RunValue.lean ====
/-
  The idealized kernel's run with its result named. @main runs (the frame run); the result buffer after the host tail
  is `Spec.kerT` of the two accumulator arrays; those are the block sums of the one-hot operand against x and x·x;
  the one-hot operand is `Spec.ohT` of the view ids and x is the first argument as launched; and under the
  precondition x is finite, so by the algebra the result is the reference's function `Spec.refT` of the arguments.
-/
import proofs.«413106_j3882650436522_3_alg».proof.Defs
import proofs.«413106_j3882650436522_3_alg».proof.Proof.KernelIdeal.Frame
import proofs.«413106_j3882650436522_3_alg».proof.Proof.KernelIdeal.Tail
import proofs.«413106_j3882650436522_3_alg».proof.Proof.KernelIdeal.Value
import proofs.«413106_j3882650436522_3_alg».proof.Proof.Algebra
import proofs.«413106_j3882650436522_3_alg».proof.Proof.Finite

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Under the precondition: @main terminates with its result at the reference's function of the launch arguments, and
    the four arguments unchanged. -/
theorem run_value (mI : (ℓ : Loc nD τ sig) → Buf (Elt Ideal) ℓ) (ρ : Dev nD → PrngReg) (hpre : Cert.Pre_KernelIdeal mI) :
    θ_run (defs (F := Ideal)) (onTc (τ := τ) (main (F := Ideal))) ⟨mI, fun _ => 0, ρ⟩ (fun r => ∀ c : Dev nD,
      r.2.mem ((c.tc : Thread nD τ).loc main_v71) = Cert.Spec.refT (F := Ideal) (mI ((c.tc : Thread nD τ).loc main_arg0))
          (mI ((c.tc : Thread nD τ).loc main_arg1)) (mI ((c.tc : Thread nD τ).loc main_arg2)) (mI ((c.tc : Thread nD τ).loc main_arg3))
      ∧ r.2.mem ((c.tc : Thread nD τ).loc main_arg0) = mI ((c.tc : Thread nD τ).loc main_arg0)
      ∧ r.2.mem ((c.tc : Thread nD τ).loc main_arg1) = mI ((c.tc : Thread nD τ).loc main_arg1)
      ∧ r.2.mem ((c.tc : Thread nD τ).loc main_arg2) = mI ((c.tc : Thread nD τ).loc main_arg2)
      ∧ r.2.mem ((c.tc : Thread nD τ).loc main_arg3) = mI ((c.tc : Thread nD τ).loc main_arg3)) := by
  refine (θ_run defs _ _).mono (fun _ h c => ⟨?_, ?_⟩) (run_main (F := Ideal) mI ρ)
  · have hfin : Cert.Spec.Finite (mI ((c.tc : Thread nD τ).loc main_arg0)) := fun i =>
      Cert.Pre_finite_inputs.Fin.finite_arg0 _ _ _ _ (hpre c) i
    refine ((h c).2 main_v71 (Pipeline.mem_restRefs_of main_v71 (by decide) (by decide))).trans ?_
    refine (tail_value mI (dats mI) c).trans ?_
    rw [final2 mI c, final3 mI c]
    have hx : xarr mI c = mI ((c.tc : Thread nD τ).loc main_arg0) := V_main_arg0 mI c
    have ho : oarr mI c = Cert.Spec.ohT (F := Ideal) (mI ((c.tc : Thread nD τ).loc main_arg3)) := V_main_v4 mI c
    rw [hx, ho]
    exact Cert.Spec.ker_eq_ref _ _ _ _ hfin
  · exact ⟨((h c).1 0).trans (((dats mI 0 c).arrAt_in 0 rfl _).trans ((A_eq mI c 0).trans (V_main_arg0 mI c))),
      ((h c).2 main_arg1 (Pipeline.mem_restRefs_of main_arg1 (by decide) (by decide))).trans (W_main_arg1 mI (dats mI) c),
      ((h c).2 main_arg2 (Pipeline.mem_restRefs_of main_arg2 (by decide) (by decide))).trans (W_main_arg2 mI (dats mI) c),
      ((h c).2 main_arg3 (Pipeline.mem_restRefs_of main_arg3 (by decide) (by decide))).trans (W_main_arg3 mI (dats mI) c)⟩

end Cert.KernelIdeal.Frm

end
-- ==== Proof.RefValue.lean ====
/-
  The reference's value: what @main of the plain-jnp program leaves in its result buffer is `Spec.refT` of the four
  argument arrays — its generated run's composed term, with the shared last stretch and the three per-view statistics
  named. Nothing is computed here: the two terms are the same operations in the same order.
-/
import proofs.«413106_j3882650436522_3_alg».proof.Proof.RefRun
import proofs.«413106_j3882650436522_3_alg».proof.Proof.Spec

noncomputable section

namespace Cert.ReferenceIdeal.RefValue

open Cert.ReferenceIdeal Cert.ReferenceIdeal.Gen Idealize.ShloMosaic Idealize.ShloMosaic.TcCoe Idealize.SL.Sem

variable {F : FTy → Type} [FloatOps F]

set_option maxRecDepth 16384 in
set_option maxHeartbeats 4000000 in
/-- The run's result term is the specification's function of the arguments' launch contents. -/
theorem res_eq (m : (ℓ : Loc nD τ sig) → Buf (Elt F) ℓ) (c : Dev nD) :
    Cert.ReferenceIdeal.ValueP.res_main_v71 (F := F) m c
      = Cert.Spec.refT (F := F) (m ((c.tc : Thread nD τ).loc main_arg0)) (m ((c.tc : Thread nD τ).loc main_arg1))
          (m ((c.tc : Thread nD τ).loc main_arg2)) (m ((c.tc : Thread nD τ).loc main_arg3)) := by
  unfold Cert.ReferenceIdeal.ValueP.res_main_v71
  rfl

end Cert.ReferenceIdeal.RefValue

end
-- ==== Proof.lean ====
/-
  The certificate: the kernel and its jnp reference, run from memories agreeing on the four arguments, both end with
  the same loss over the extended reals, whenever the float arguments are finite.

  The kernel computes per-view sums of x and of x·x by a one-hot matmul, accumulated block by block on each of two
  cores and added on the host, and from them the per-view mean and a one-pass variance (sum of squares minus
  count · mean², clamped at zero); the reference scatters rows into their view's slot and accumulates squared
  distances to each row's own view mean. With finite x the one-hot product is the scattered sum, and
  Σ (x − μ)² = Σ x² − n μ² ≥ 0 when μ is the view's mean (both are 0 for an empty view), so the two deviations agree;
  everything after — the averages over the valid views, the blended centres, the distances — is the same function of
  counts, means and deviations in both programs. A view id outside 0 … 5 selects no one-hot row and lands in no
  scatter slot: such a row contributes to neither.

  The three frames: each program runs to the end, faults nowhere and leaves its arguments as launched. For the two
  kernel programs that is the region's proof data (an accumulator carried across a core's sixteen grid points, reset
  at the first) with the host operations before and after the region, which write no argument; for the reference it
  is its run read back. The idealization rewrote nothing, so `preserves` asks nothing.
-/
import proofs.«413106_j3882650436522_3_alg».proof.Defs
import proofs.«413106_j3882650436522_3_alg».proof.Proof.Kernel.Frame
import proofs.«413106_j3882650436522_3_alg».proof.Proof.KernelIdeal.RunValue
import proofs.«413106_j3882650436522_3_alg».proof.Proof.RefValue
import proofs.«413106_j3882650436522_3_alg».proof.Proof.Gen.Kernel
import proofs.«413106_j3882650436522_3_alg».proof.Proof.Gen.KernelIdeal
import proofs.«413106_j3882650436522_3_alg».proof.Proof.Gen.ReferenceIdeal
import proofs.«413106_j3882650436522_3_alg».proof.Proof.Gen.Pre_finite_inputs
import Idealize.ShloMosaic.Adequacy
import Idealize.ShloMosaic.Init

noncomputable section

namespace Cert.Proof

open Idealize.ShloMosaic Idealize.SL.Sem

theorem frame_k : Cert.frame_Kernel := fun m ρ _ => Cert.Kernel.Frm.frame m ρ
theorem frame_ki : Cert.frame_KernelIdeal := fun m ρ _ => Cert.KernelIdeal.Frm.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Both programs end at the reference's function of the launch arguments. -/
theorem algebraic : Cert.algebraic_KernelIdeal_ReferenceIdeal := by
  intro m ρ m' ρ' hpre hagree
  refine ⟨fun c => Cert.Spec.refT (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Frm.run_value m ρ hpre, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.res_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
